-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x32 : Shape := ⟨2, ![200000, 32]⟩
abbrev S2x3200000 : Shape := ⟨2, ![2, 3200000]⟩
abbrev S200000 : Shape := ⟨1, ![200000]⟩
abbrev S64x32 : Shape := ⟨2, ![64, 32]⟩
abbrev S64 : Shape := ⟨1, ![64]⟩
abbrev S64x64 : Shape := ⟨2, ![64, 64]⟩
abbrev S2x64 : Shape := ⟨2, ![2, 64]⟩
abbrev S2 : Shape := ⟨1, ![2]⟩
abbrev S_ : Shape := ⟨0, ![]⟩

class Facts : Prop where
  bcast_S_S200000x32 : S_.BroadcastsInDim S200000x32 (![] : Fin 0 → Fin S200000x32.rank)
  reducesTo_S200000x32_S_d0_1 : S200000x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S2x64 .f32) (main_arg10 : FVec F S2 .f32) (main_v33 : IVec S_ 1) : IVec S_ 1 :=
  let main_v34 : FVec F S2x64 .f32 := Host.absf main_arg9
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S64x64 .f32) (main_arg7 : FVec F S64 .f32) (main_arg8 : FVec F S64x64 .f32) (main_arg9 : FVec F S2x64 .f32) (main_arg10 : FVec F S2 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_v33

def fn {F : FTy → Type} [FloatOps F] (main_arg0 : FVec F S200000x32 .f32) (main_arg1 : IVec S2x3200000 32) (main_arg2 : IVec S200000 32) (main_arg3 : FVec F S64x32 .f32) (main_arg4 : FVec F S64 .f32) (main_arg5 : FVec F S64x32 .f32) (main_arg6 : FVec F S64x64 .f32) (main_arg7 : FVec F S64 .f32) (main_arg8 : FVec F S64x64 .f32) (main_arg9 : FVec F S2x64 .f32) (main_arg10 : FVec F S2 .f32) : IVec S_ 1 :=
  let main_v0 : FVec F S200000x32 .f32 := Host.absf main_arg0
  let main_cst : FVec F S_ .f32 := constant S_ .f32 0x7F800000#32
  let main_v1 : FVec F S200000x32 .f32 := broadcastInDim S200000x32 ![] bcast_S_S200000x32 main_cst
  let main_v2 : IVec S200000x32 1 := cmpf .olt main_v0 main_v1
  let main_c : IVec S_ 1 := constantI S_ 1 1#1
  let main_v3 : IVec S_ 1 := (fun x v => Host.reduce IntOp.andi x v reducesTo_S200000x32_S_d0_1 h_S_) main_v2 main_c
  let main_v4 : FVec F S64x32 .f32 := Host.absf main_arg3
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_arg7 main_arg8 main_arg9 main_arg10 main_v13 main_v16
-- ==== Kernel.lean ====
abbrev S200000x32 : Shape := ⟨2, ![200000, 32]⟩
abbrev S2x3200000 : Shape := ⟨2, ![2, 3200000]⟩
abbrev S200000 : Shape := ⟨1, ![200000]⟩
abbrev S64x32 : Shape := ⟨2, ![64, 32]⟩
abbrev S64 : Shape := ⟨1, ![64]⟩
abbrev S64x64 : Shape := ⟨2, ![64, 64]⟩
abbrev S2x64 : Shape := ⟨2, ![2, 64]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S200000x1 : Shape := ⟨2, ![200000, 1]⟩
abbrev S32x64 : Shape := ⟨2, ![32, 64]⟩
abbrev S1x64 : Shape := ⟨2, ![1, 64]⟩
abbrev S200000x64 : Shape := ⟨2, ![200000, 64]⟩
abbrev S4000x32 : Shape := ⟨2, ![4000, 32]⟩
abbrev S4000x64 : Shape := ⟨2, ![4000, 64]⟩
abbrev S3200000x64 : Shape := ⟨2, ![3200000, 64]⟩
abbrev S4000 : Shape := ⟨1, ![4000]⟩
abbrev S4000x1 : Shape := ⟨2, ![4000, 1]⟩
abbrev S64x2 : Shape := ⟨2, ![64, 2]⟩
abbrev S4000x2 : Shape := ⟨2, ![4000, 2]⟩
abbrev S1x2 : Shape := ⟨2, ![1, 2]⟩

abbrev nBuf : Space → Nat
  | .hbm => 88
  | .vmem => 18
  | .smem => 0
  | _ => 0

abbrev bufTy : (tb : Table) → Fin (tcTables nBuf tb) → BufTy
  | .hbm, ⟨0, _⟩ => ⟨S200000x32, .f32⟩
  | .hbm, ⟨1, _⟩ => ⟨S2x3200000, .i32⟩
  | .hbm, ⟨2, _⟩ => ⟨S200000, .i32⟩
  | .hbm, ⟨3, _⟩ => ⟨S64x32, .f32⟩
  | .hbm, ⟨4, _⟩ => ⟨S64, .f32⟩
  | .hbm, ⟨5, _⟩ => ⟨S64x32, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S2x64, .f32⟩
  | .hbm, ⟨10, _⟩ => ⟨S2, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .f32⟩
  | .hbm, ⟨16, _⟩ => ⟨S3200000, .f32⟩
  | .hbm, ⟨17, _⟩ => ⟨S_, .f32⟩
  | .hbm, ⟨18, _⟩ => ⟨S200000, .f32⟩
  | .hbm, ⟨19, _⟩ => ⟨S3200000x1, .i32⟩
  | .hbm, ⟨20, _⟩ => ⟨S200000, .f32⟩
  | .hbm, ⟨21, _⟩ => ⟨S_, .f32⟩
  | .hbm, ⟨22, _⟩ => ⟨S200000, .f32⟩
  | .hbm, ⟨23, _⟩ => ⟨S200000, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x32, .f32⟩
  | .hbm, ⟨36, _⟩ => ⟨S_, .f32⟩
  | .hbm, ⟨37, _⟩ => ⟨S200000x32, .f32⟩
  | .hbm, ⟨38, _⟩ => ⟨S3200000x1, .i32⟩
  | .hbm, ⟨39, _⟩ => ⟨S200000x32, .f32⟩
  | .hbm, ⟨40, _⟩ => ⟨S200000x1, .f32⟩
  | .hbm, ⟨41, _⟩ => ⟨S200000x32, .f32⟩
  | .hbm, ⟨42, _⟩ => ⟨S200000x32, .f32⟩
  | .hbm, ⟨43, _⟩ => ⟨S32x64, .f32⟩
  | .hbm, ⟨44, _⟩ => ⟨S32x64, .f32⟩
  | .hbm, ⟨45, _⟩ => ⟨S1x64, .f32⟩
  | .hbm, ⟨46, _⟩ => ⟨S200000x64, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S3200000x64, .f32⟩
  | .hbm, ⟨56, _⟩ => ⟨S_, .f32⟩
  | .hbm, ⟨57, _⟩ => ⟨S200000x64, .f32⟩
  | .hbm, ⟨58, _⟩ => ⟨S3200000x1, .i32⟩
  | .hbm, ⟨59, _⟩ => ⟨S200000x64, .f32⟩
  | .hbm, ⟨60, _⟩ => ⟨S200000x1, .f32⟩
  | .hbm, ⟨61, _⟩ => ⟨S200000x64, .f32⟩
  | .hbm, ⟨62, _⟩ => ⟨S200000x64, .f32⟩
  | .hbm, ⟨63, _⟩ => ⟨S64x64, .f32⟩
  | .hbm, ⟨64, _⟩ => ⟨S64x64, .f32⟩
  | .hbm, ⟨65, _⟩ => ⟨S1x64, .f32⟩
  | .hbm, ⟨66, _⟩ => ⟨S200000x64, .f32⟩
  | .hbm, ⟨67, _⟩ => ⟨S_, .f32⟩
  | .hbm, ⟨68, _⟩ => ⟨S4000x64, .f32⟩
  | .hbm, ⟨69, _⟩ => ⟨S200000x1, .i32⟩
  | .hbm, ⟨70, _⟩ => ⟨S4000x64, .f32⟩
  | .hbm, ⟨71, _⟩ => ⟨S_, .f32⟩
  | .hbm, ⟨72, _⟩ => ⟨S200000, .f32⟩
  | .hbm, ⟨73, _⟩ => ⟨S_, .f32⟩
  | .hbm, ⟨74, _⟩ => ⟨S4000, .f32⟩
  | .hbm, ⟨75, _⟩ => ⟨S200000x1, .i32⟩
  | .hbm, ⟨76, _⟩ => ⟨S4000, .f32⟩
  | .hbm, ⟨77, _⟩ => ⟨S_, .f32⟩
  | .hbm, ⟨78, _⟩ => ⟨S4000, .f32⟩
  | .hbm, ⟨79, _⟩ => ⟨S4000, .f32⟩
  | .hbm, ⟨80, _⟩ => ⟨S4000x1, .f32⟩
  | .hbm, ⟨81, _⟩ => ⟨S4000x64, .f32⟩
  | .hbm, ⟨82, _⟩ => ⟨S4000x64, .f32⟩
  | .hbm, ⟨83, _⟩ => ⟨S64x2, .f32⟩
  | .hbm, ⟨84, _⟩ => ⟨S4000x2, .f32⟩
  | .hbm, ⟨85, _⟩ => ⟨S1x2, .f32⟩
  | .hbm, ⟨86, _⟩ => ⟨S4000x2, .f32⟩
  | .hbm, ⟨87, _⟩ => ⟨S4000x2, .f32⟩
  | .local _ .vmem, ⟨0, _⟩ => ⟨S4000x32, .f32⟩
  | .local _ .vmem, ⟨1, _⟩ => ⟨S4000x32, .f32⟩
  | .local _ .vmem, ⟨2, _⟩ => ⟨S4000x32, .f32⟩
  | .local _ .vmem, ⟨3, _⟩ => ⟨S4000x32, .f32⟩
  | .local _ .vmem, ⟨4, _⟩ => ⟨S32x64, .f32⟩
  | .local _ .vmem, ⟨5, _⟩ => ⟨S1x64, .f32⟩
  | .local _ .vmem, ⟨6, _⟩ => ⟨S32x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S4000x64, .f32⟩
  | .local _ .vmem, ⟨17, _⟩ => ⟨S4000x64, .f32⟩
  | _, _ => ⟨S200000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call0_v0 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call1_v0 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S200000 : S_.BroadcastsInDim S200000 (![] : Fin 0 → Fin S200000.rank)
  bcast_S3200000_S3200000x1_0 : S3200000.BroadcastsInDim S3200000x1 (![0] : Fin 1 → Fin S3200000x1.rank)
  bcast_S_S200000x32 : S_.BroadcastsInDim S200000x32 (![] : Fin 0 → Fin S200000x32.rank)
  bcast_S200000_S200000x1_0 : S200000.BroadcastsInDim S200000x1 (![0] : Fin 1 → Fin S200000x1.rank)
  bcast_S200000x1_S200000x32_0_1 : S200000x1.BroadcastsInDim S200000x32 (![0, 1] : Fin 2 → Fin S200000x32.rank)
  transposes_S64x32_S32x64_1_0 : S64x32.Transposes [1, 0] S32x64
  shapeCasts_S64_S1x64 : S64.ShapeCasts S1x64
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  transposes_S64x64_S64x64_1_0 : S64x64.Transposes [1, 0] S64x64
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S4000x64 : S_.BroadcastsInDim S4000x64 (![] : Fin 0 → Fin S4000x64.rank)
  bcast_S_S4000 : S_.BroadcastsInDim S4000 (![] : Fin 0 → Fin S4000.rank)
  bcast_S4000_S4000x1_0 : S4000.BroadcastsInDim S4000x1 (![0] : Fin 1 → Fin S4000x1.rank)
  bcast_S4000x1_S4000x64_0_1 : S4000x1.BroadcastsInDim S4000x64 (![0, 1] : Fin 2 → Fin S4000x64.rank)
  transposes_S2x64_S64x2_1_0 : S2x64.Transposes [1, 0] S64x2
  bcast_S2_S1x2_1 : S2.BroadcastsInDim S1x2 (![1] : Fin 1 → Fin S1x2.rank)
  bcast_S1x2_S4000x2_0_1 : S1x2.BroadcastsInDim S4000x2 (![0, 1] : Fin 2 → Fin S4000x2.rank)
  scatter_S200000_S3200000x1_S3200000_n_0_0_1_wf : ScatterDims.WF S200000 S3200000x1 S3200000 [] [0] [0] 1
  gather_S200000x32_S3200000x1_S3200000x32_1_0_n_n_0_1_132_wf : GatherDims.WF S200000x32 S3200000x1 S3200000x32 [1] [0] [] [0] [] 1 ![1, 32]
  scatter_S200000x32_S3200000x1_S3200000x32_1_0_0_1_wf : ScatterDims.WF S200000x32 S3200000x1 S3200000x32 [1] [0] [0] 1
  dot_S4000x32_S32x64_S4000x64_1_0_0_1_n_n_wf : DotDims.WF S4000x32 S32x64 S4000x64 [1] [0] [0] [1] [] []
  gather_S200000x64_S3200000x1_S3200000x64_1_0_n_n_0_1_164_wf : GatherDims.WF S200000x64 S3200000x1 S3200000x64 [1] [0] [] [0] [] 1 ![1, 64]
  scatter_S200000x64_S3200000x1_S3200000x64_1_0_0_1_wf : ScatterDims.WF S200000x64 S3200000x1 S3200000x64 [1] [0] [0] 1
  dot_S4000x64_S64x64_S4000x64_1_0_0_1_n_n_wf : DotDims.WF S4000x64 S64x64 S4000x64 [1] [0] [0] [1] [] []
  scatter_S4000x64_S200000x1_S200000x64_1_0_0_1_wf : ScatterDims.WF S4000x64 S200000x1 S200000x64 [1] [0] [0] 1
  scatter_S4000_S200000x1_S200000_n_0_0_1_wf : ScatterDims.WF S4000 S200000x1 S200000 [] [0] [0] 1
  dot_S4000x64_S64x2_S4000x2_1_0_0_1_n_n_wf : DotDims.WF S4000x64 S64x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S200000x32.size a
  hwx0_0 : ∀ i : grid0.Coords, EltTy.bits .f32 = 32 ∨ (Rect.block (s := S200000x32) S4000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S200000x32.size a
  hwx0_1 : ∀ i : grid0.Coords, EltTy.bits .f32 = 32 ∨ (Rect.block (s := S200000x32) S4000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S200000x64.size a
  hwx0_5 : ∀ i : grid0.Coords, EltTy.bits .f32 = 32 ∨ (Rect.block (s := S200000x64) S4000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S200000x64.size a
  hwx1_0 : ∀ i : grid1.Coords, EltTy.bits .f32 = 32 ∨ (Rect.block (s := S200000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S200000x64.size a
  hwx1_1 : ∀ i : grid1.Coords, EltTy.bits .f32 = 32 ∨ (Rect.block (s := S200000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S200000x64.size a
  hwx1_5 : ∀ i : grid1.Coords, EltTy.bits .f32 = 32 ∨ (Rect.block (s := S200000x64) S4000x64.size (cc1_transform_5 i) (hinb1_5 i)).WholeWords (EltTy.packing .f32)

variable [Facts₀]

def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def gather_S200000x32_S3200000x1_S3200000x32_1_0_n_n_0_1_132 : GatherDims S200000x32 S3200000x1 S3200000x32 where
  offsetDims := [1]
  collapsedSliceDims := [0]
  operandBatchingDims := []
  startIndicesBatchingDims := []
  startIndexMap := [0]
  indexVectorDim := 1
  sliceSizes := ![1, 32]
  wf := gather_S200000x32_S3200000x1_S3200000x32_1_0_n_n_0_1_132_wf
def scatter_S200000x32_S3200000x1_S3200000x32_1_0_0_1 : ScatterDims S200000x32 S3200000x1 S3200000x32 where
  updateWindowDims := [1]
  insertedWindowDims := [0]
  scatterDimsToOperandDims := [0]
  indexVectorDim := 1
  wf := scatter_S200000x32_S3200000x1_S3200000x32_1_0_0_1_wf
def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf
def gather_S200000x64_S3200000x1_S3200000x64_1_0_n_n_0_1_164 : GatherDims S200000x64 S3200000x1 S3200000x64 where
  offsetDims := [1]
  collapsedSliceDims := [0]
  operandBatchingDims := []
  startIndicesBatchingDims := []
  startIndexMap := [0]
  indexVectorDim := 1
  sliceSizes := ![1, 64]
  wf := gather_S200000x64_S3200000x1_S3200000x64_1_0_n_n_0_1_164_wf
def scatter_S200000x64_S3200000x1_S3200000x64_1_0_0_1 : ScatterDims S200000x64 S3200000x1 S3200000x64 where
  updateWindowDims := [1]
  insertedWindowDims := [0]
  scatterDimsToOperandDims := [0]
  indexVectorDim := 1
  wf := scatter_S200000x64_S3200000x1_S3200000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S4000x64_S200000x1_S200000x64_1_0_0_1 : ScatterDims S4000x64 S200000x1 S200000x64 where
  updateWindowDims := [1]
  insertedWindowDims := [0]
  scatterDimsToOperandDims := [0]
  indexVectorDim := 1
  wf := scatter_S4000x64_S200000x1_S200000x64_1_0_0_1_wf
def scatter_S4000_S200000x1_S200000_n_0_0_1 : ScatterDims S4000 S200000x1 S200000 where
  updateWindowDims := []
  insertedWindowDims := [0]
  scatterDimsToOperandDims := [0]
  indexVectorDim := 1
  wf := scatter_S4000_S200000x1_S200000_n_0_0_1_wf
def dot_S4000x64_S64x2_S4000x2_1_0_0_1_n_n : DotDims S4000x64 S64x2 S4000x2 where
  lhsContracting := [1]
  rhsContracting := [0]
  lhsNonContracting := [0]
  rhsNonContracting := [1]
  lhsBatch := []
  rhsBatch := []
  wf := dot_S4000x64_S64x2_S4000x2_1_0_0_1_n_n_wf

abbrev win0_0 : Pipeline.Window sig grid0 :=
  Pipeline.Window.ofSpec (Memref.whole main_v24) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call1_v0) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S200000x32 : Shape := ⟨2, ![200000, 32]⟩
abbrev S2x3200000 : Shape := ⟨2, ![2, 3200000]⟩
abbrev S200000 : Shape := ⟨1, ![200000]⟩
abbrev S64x32 : Shape := ⟨2, ![64, 32]⟩
abbrev S64 : Shape := ⟨1, ![64]⟩
abbrev S64x64 : Shape := ⟨2, ![64, 64]⟩
abbrev S2x64 : Shape := ⟨2, ![2, 64]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S200000x1 : Shape := ⟨2, ![200000, 1]⟩
abbrev S32x64 : Shape := ⟨2, ![32, 64]⟩
abbrev S200000x64 : Shape := ⟨2, ![200000, 64]⟩
abbrev S1x64 : Shape := ⟨2, ![1, 64]⟩
abbrev S3200000x64 : Shape := ⟨2, ![3200000, 64]⟩
abbrev S4000x64 : Shape := ⟨2, ![4000, 64]⟩
abbrev S4000 : Shape := ⟨1, ![4000]⟩
abbrev S4000x1 : Shape := ⟨2, ![4000, 1]⟩
abbrev S64x2 : Shape := ⟨2, ![64, 2]⟩
abbrev S4000x2 : Shape := ⟨2, ![4000, 2]⟩
abbrev S1x2 : Shape := ⟨2, ![1, 2]⟩

abbrev nBuf : Space → Nat
  | .hbm => 108
  | .vmem => 0
  | .smem => 0
  | _ => 0

abbrev bufTy : (tb : Table) → Fin (tcTables nBuf tb) → BufTy
  | .hbm, ⟨0, _⟩ => ⟨S200000x32, .f32⟩
  | .hbm, ⟨1, _⟩ => ⟨S2x3200000, .i32⟩
  | .hbm, ⟨2, _⟩ => ⟨S200000, .i32⟩
  | .hbm, ⟨3, _⟩ => ⟨S64x32, .f32⟩
  | .hbm, ⟨4, _⟩ => ⟨S64, .f32⟩
  | .hbm, ⟨5, _⟩ => ⟨S64x32, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S2x64, .f32⟩
  | .hbm, ⟨10, _⟩ => ⟨S2, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x32, .f32⟩
  | .hbm, ⟨24, _⟩ => ⟨S_, .f32⟩
  | .hbm, ⟨25, _⟩ => ⟨S200000x32, .f32⟩
  | .hbm, ⟨26, _⟩ => ⟨S3200000x1, .i32⟩
  | .hbm, ⟨27, _⟩ => ⟨S200000x32, .f32⟩
  | .hbm, ⟨28, _⟩ => ⟨S_, .f32⟩
  | .hbm, ⟨29, _⟩ => ⟨S3200000, .f32⟩
  | .hbm, ⟨30, _⟩ => ⟨S_, .f32⟩
  | .hbm, ⟨31, _⟩ => ⟨S200000, .f32⟩
  | .hbm, ⟨32, _⟩ => ⟨S3200000x1, .i32⟩
  | .hbm, ⟨33, _⟩ => ⟨S200000, .f32⟩
  | .hbm, ⟨34, _⟩ => ⟨S_, .f32⟩
  | .hbm, ⟨35, _⟩ => ⟨S200000, .f32⟩
  | .hbm, ⟨36, _⟩ => ⟨S200000, .f32⟩
  | .hbm, ⟨37, _⟩ => ⟨S200000x1, .f32⟩
  | .hbm, ⟨38, _⟩ => ⟨S200000x32, .f32⟩
  | .hbm, ⟨39, _⟩ => ⟨S200000x32, .f32⟩
  | .hbm, ⟨40, _⟩ => ⟨S32x64, .f32⟩
  | .hbm, ⟨41, _⟩ => ⟨S200000x64, .f32⟩
  | .hbm, ⟨42, _⟩ => ⟨S1x64, .f32⟩
  | .hbm, ⟨43, _⟩ => ⟨S200000x64, .f32⟩
  | .hbm, ⟨44, _⟩ => ⟨S200000x64, .f32⟩
  | .hbm, ⟨45, _⟩ => ⟨S32x64, .f32⟩
  | .hbm, ⟨46, _⟩ => ⟨S200000x64, .f32⟩
  | .hbm, ⟨47, _⟩ => ⟨S200000x64, .f32⟩
  | .hbm, ⟨48, _⟩ => ⟨S_, .f32⟩
  | .hbm, ⟨49, _⟩ => ⟨S200000x64, .f32⟩
  | .hbm, ⟨50, _⟩ => ⟨S200000x64, .f32⟩
  | .hbm, ⟨51, _⟩ => ⟨S_, .i32⟩
  | .hbm, ⟨52, _⟩ => ⟨S3200000, .i32⟩
  | .hbm, ⟨53, _⟩ => ⟨S3200000, .i1⟩
  | .hbm, ⟨54, _⟩ => ⟨S_, .i32⟩
  | .hbm, ⟨55, _⟩ => ⟨S3200000, .i32⟩
  | .hbm, ⟨56, _⟩ => ⟨S3200000, .i32⟩
  | .hbm, ⟨57, _⟩ => ⟨S3200000, .i32⟩
  | .hbm, ⟨58, _⟩ => ⟨S3200000x1, .i32⟩
  | .hbm, ⟨59, _⟩ => ⟨S3200000x64, .f32⟩
  | .hbm, ⟨60, _⟩ => ⟨S_, .f32⟩
  | .hbm, ⟨61, _⟩ => ⟨S200000x64, .f32⟩
  | .hbm, ⟨62, _⟩ => ⟨S3200000x1, .i32⟩
  | .hbm, ⟨63, _⟩ => ⟨S200000x64, .f32⟩
  | .hbm, ⟨64, _⟩ => ⟨S_, .f32⟩
  | .hbm, ⟨65, _⟩ => ⟨S3200000, .f32⟩
  | .hbm, ⟨66, _⟩ => ⟨S_, .f32⟩
  | .hbm, ⟨67, _⟩ => ⟨S200000, .f32⟩
  | .hbm, ⟨68, _⟩ => ⟨S3200000x1, .i32⟩
  | .hbm, ⟨69, _⟩ => ⟨S200000, .f32⟩
  | .hbm, ⟨70, _⟩ => ⟨S_, .f32⟩
  | .hbm, ⟨71, _⟩ => ⟨S200000, .f32⟩
  | .hbm, ⟨72, _⟩ => ⟨S200000, .f32⟩
  | .hbm, ⟨73, _⟩ => ⟨S200000x1, .f32⟩
  | .hbm, ⟨74, _⟩ => ⟨S200000x64, .f32⟩
  | .hbm, ⟨75, _⟩ => ⟨S200000x64, .f32⟩
  | .hbm, ⟨76, _⟩ => ⟨S64x64, .f32⟩
  | .hbm, ⟨77, _⟩ => ⟨S200000x64, .f32⟩
  | .hbm, ⟨78, _⟩ => ⟨S1x64, .f32⟩
  | .hbm, ⟨79, _⟩ => ⟨S200000x64, .f32⟩
  | .hbm, ⟨80, _⟩ => ⟨S200000x64, .f32⟩
  | .hbm, ⟨81, _⟩ => ⟨S64x64, .f32⟩
  | .hbm, ⟨82, _⟩ => ⟨S200000x64, .f32⟩
  | .hbm, ⟨83, _⟩ => ⟨S200000x64, .f32⟩
  | .hbm, ⟨84, _⟩ => ⟨S_, .f32⟩
  | .hbm, ⟨85, _⟩ => ⟨S200000x64, .f32⟩
  | .hbm, ⟨86, _⟩ => ⟨S200000x64, .f32⟩
  | .hbm, ⟨87, _⟩ => ⟨S_, .f32⟩
  | .hbm, ⟨88, _⟩ => ⟨S4000x64, .f32⟩
  | .hbm, ⟨89, _⟩ => ⟨S200000x1, .i32⟩
  | .hbm, ⟨90, _⟩ => ⟨S4000x64, .f32⟩
  | .hbm, ⟨91, _⟩ => ⟨S_, .f32⟩
  | .hbm, ⟨92, _⟩ => ⟨S200000, .f32⟩
  | .hbm, ⟨93, _⟩ => ⟨S_, .f32⟩
  | .hbm, ⟨94, _⟩ => ⟨S4000, .f32⟩
  | .hbm, ⟨95, _⟩ => ⟨S200000x1, .i32⟩
  | .hbm, ⟨96, _⟩ => ⟨S4000, .f32⟩
  | .hbm, ⟨97, _⟩ => ⟨S_, .f32⟩
  | .hbm, ⟨98, _⟩ => ⟨S4000, .f32⟩
  | .hbm, ⟨99, _⟩ => ⟨S4000, .f32⟩
  | .hbm, ⟨100, _⟩ => ⟨S4000x1, .f32⟩
  | .hbm, ⟨101, _⟩ => ⟨S4000x64, .f32⟩
  | .hbm, ⟨102, _⟩ => ⟨S4000x64, .f32⟩
  | .hbm, ⟨103, _⟩ => ⟨S64x2, .f32⟩
  | .hbm, ⟨104, _⟩ => ⟨S4000x2, .f32⟩
  | .hbm, ⟨105, _⟩ => ⟨S1x2, .f32⟩
  | .hbm, ⟨106, _⟩ => ⟨S4000x2, .f32⟩
  | .hbm, ⟨107, _⟩ => ⟨S4000x2, .f32⟩
  | _, _ => ⟨S200000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S200000x32 : S_.BroadcastsInDim S200000x32 (![] : Fin 0 → Fin S200000x32.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x32_0_1 : S200000x1.BroadcastsInDim S200000x32 (![0, 1] : Fin 2 → Fin S200000x32.rank)
  transposes_S64x32_S32x64_1_0 : S64x32.Transposes [1, 0] S32x64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  transposes_S64x64_S64x64_1_0 : S64x64.Transposes [1, 0] S64x64
  bcast_S_S4000x64 : S_.BroadcastsInDim S4000x64 (![] : Fin 0 → Fin S4000x64.rank)
  bcast_S_S4000 : S_.BroadcastsInDim S4000 (![] : Fin 0 → Fin S4000.rank)
  bcast_S4000_S4000x1_0 : S4000.BroadcastsInDim S4000x1 (![0] : Fin 1 → Fin S4000x1.rank)
  bcast_S4000x1_S4000x64_0_1 : S4000x1.BroadcastsInDim S4000x64 (![0, 1] : Fin 2 → Fin S4000x64.rank)
  transposes_S2x64_S64x2_1_0 : S2x64.Transposes [1, 0] S64x2
  bcast_S2_S1x2_1 : S2.BroadcastsInDim S1x2 (![1] : Fin 1 → Fin S1x2.rank)
  bcast_S1x2_S4000x2_0_1 : S1x2.BroadcastsInDim S4000x2 (![0, 1] : Fin 2 → Fin S4000x2.rank)
  gather_S200000x32_S3200000x1_S3200000x32_1_0_n_n_0_1_132_wf : GatherDims.WF S200000x32 S3200000x1 S3200000x32 [1] [0] [] [0] [] 1 ![1, 32]
  scatter_S200000x32_S3200000x1_S3200000x32_1_0_0_1_wf : ScatterDims.WF S200000x32 S3200000x1 S3200000x32 [1] [0] [0] 1
  scatter_S200000_S3200000x1_S3200000_n_0_0_1_wf : ScatterDims.WF S200000 S3200000x1 S3200000 [] [0] [0] 1
  dot_S200000x32_S32x64_S200000x64_1_0_0_1_n_n_wf : DotDims.WF S200000x32 S32x64 S200000x64 [1] [0] [0] [1] [] []
  gather_S200000x64_S3200000x1_S3200000x64_1_0_n_n_0_1_164_wf : GatherDims.WF S200000x64 S3200000x1 S3200000x64 [1] [0] [] [0] [] 1 ![1, 64]
  scatter_S200000x64_S3200000x1_S3200000x64_1_0_0_1_wf : ScatterDims.WF S200000x64 S3200000x1 S3200000x64 [1] [0] [0] 1
  dot_S200000x64_S64x64_S200000x64_1_0_0_1_n_n_wf : DotDims.WF S200000x64 S64x64 S200000x64 [1] [0] [0] [1] [] []
  scatter_S4000x64_S200000x1_S200000x64_1_0_0_1_wf : ScatterDims.WF S4000x64 S200000x1 S200000x64 [1] [0] [0] 1
  scatter_S4000_S200000x1_S200000_n_0_0_1_wf : ScatterDims.WF S4000 S200000x1 S200000 [] [0] [0] 1
  dot_S4000x64_S64x2_S4000x2_1_0_0_1_n_n_wf : DotDims.WF S4000x64 S64x2 S4000x2 [1] [0] [0] [1] [] []

variable [Facts₀]

def gather_S200000x32_S3200000x1_S3200000x32_1_0_n_n_0_1_132 : GatherDims S200000x32 S3200000x1 S3200000x32 where
  offsetDims := [1]
  collapsedSliceDims := [0]
  operandBatchingDims := []
  startIndicesBatchingDims := []
  startIndexMap := [0]
  indexVectorDim := 1
  sliceSizes := ![1, 32]
  wf := gather_S200000x32_S3200000x1_S3200000x32_1_0_n_n_0_1_132_wf
def scatter_S200000x32_S3200000x1_S3200000x32_1_0_0_1 : ScatterDims S200000x32 S3200000x1 S3200000x32 where
  updateWindowDims := [1]
  insertedWindowDims := [0]
  scatterDimsToOperandDims := [0]
  indexVectorDim := 1
  wf := scatter_S200000x32_S3200000x1_S3200000x32_1_0_0_1_wf
def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def dot_S200000x32_S32x64_S200000x64_1_0_0_1_n_n : DotDims S200000x32 S32x64 S200000x64 where
  lhsContracting := [1]
  rhsContracting := [0]
  lhsNonContracting := [0]
  rhsNonContracting := [1]
  lhsBatch := []
  rhsBatch := []
  wf := dot_S200000x32_S32x64_S200000x64_1_0_0_1_n_n_wf
def gather_S200000x64_S3200000x1_S3200000x64_1_0_n_n_0_1_164 : GatherDims S200000x64 S3200000x1 S3200000x64 where
  offsetDims := [1]
  collapsedSliceDims := [0]
  operandBatchingDims := []
  startIndicesBatchingDims := []
  startIndexMap := [0]
  indexVectorDim := 1
  sliceSizes := ![1, 64]
  wf := gather_S200000x64_S3200000x1_S3200000x64_1_0_n_n_0_1_164_wf
def scatter_S200000x64_S3200000x1_S3200000x64_1_0_0_1 : ScatterDims S200000x64 S3200000x1 S3200000x64 where
  updateWindowDims := [1]
  insertedWindowDims := [0]
  scatterDimsToOperandDims := [0]
  indexVectorDim := 1
  wf := scatter_S200000x64_S3200000x1_S3200000x64_1_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def scatter_S4000x64_S200000x1_S200000x64_1_0_0_1 : ScatterDims S4000x64 S200000x1 S200000x64 where
  updateWindowDims := [1]
  insertedWindowDims := [0]
  scatterDimsToOperandDims := [0]
  indexVectorDim := 1
  wf := scatter_S4000x64_S200000x1_S200000x64_1_0_0_1_wf
def scatter_S4000_S200000x1_S200000_n_0_0_1 : ScatterDims S4000 S200000x1 S200000 where
  updateWindowDims := []
  insertedWindowDims := [0]
  scatterDimsToOperandDims := [0]
  indexVectorDim := 1
  wf := scatter_S4000_S200000x1_S200000_n_0_0_1_wf
def dot_S4000x64_S64x2_S4000x2_1_0_0_1_n_n : DotDims S4000x64 S64x2 S4000x2 where
  lhsContracting := [1]
  rhsContracting := [0]
  lhsNonContracting := [0]
  rhsNonContracting := [1]
  lhsBatch := []
  rhsBatch := []
  wf := dot_S4000x64_S64x2_S4000x2_1_0_0_1_n_n_wf

class Facts : Prop extends Facts₀ where

variable [Facts]
-- ==== Proof.SageSpec.lean ====
/-
  One SAGE layer as a function of its operand arrays, entry by entry, on the extended reals; and the law by which a
  neighbour mean may be taken either by multiplying with a reciprocal or by dividing.

  A layer takes the mean of each node's neighbours (`mean`), the node features themselves (`x`), two weight matrices
  already laid out as `[inputs, 64]` and a bias row. Entry `(r, j)` of its result is
      max ( (∑ₖ mean (r, k) · wl (k, j)  +  ∑ₖ x (r, k) · wr (k, j))  +  b j ,  0 ).
  The two layers of the network differ only in the number of input channels (32, then 64).

  The mean itself is a sum over incoming edges divided by the larger of the in-degree and one. Whatever extended real
  the degree `d` is, `max d 1` is at least one, hence not zero, and for a non-zero divisor the quotient is by
  definition the product with the inverse: so `a · (1 / max d 1)` and `a / max d 1` are the same extended real for
  every `a`, the infinities included.
-/
import Idealize.ShloMosaic.PureOps.Ideal
import Idealize.ShloMosaic.Lib.ValueIdx
import Idealize.ShloMosaic.Lib.IdealHost

noncomputable section

open scoped BigOperators

namespace Cert.Sage

open Idealize.ShloMosaic Idealize.ShloMosaic.ValueIdx

/-- The first layer (32 input channels) at entry `i = (r, j)`. -/
def layer32 (mean x : (⟨2, ![200000, 32]⟩ : Shape).Idx → EReal) (wl wr : (⟨2, ![32, 64]⟩ : Shape).Idx → EReal)
    (b : Fin 64 → EReal) : (⟨2, ![200000, 64]⟩ : Shape).Idx → EReal :=
  fun i => max (((∑ k : Fin 32, mean (ix2 (i 0) k) * wl (ix2 k (i 1)))
    + ∑ k : Fin 32, x (ix2 (i 0) k) * wr (ix2 k (i 1))) + b (i 1)) 0

/-- The second layer (64 input channels) at entry `i = (r, j)`. -/
def layer64 (mean x : (⟨2, ![200000, 64]⟩ : Shape).Idx → EReal) (wl wr : (⟨2, ![64, 64]⟩ : Shape).Idx → EReal)
    (b : Fin 64 → EReal) : (⟨2, ![200000, 64]⟩ : Shape).Idx → EReal :=
  fun i => max (((∑ k : Fin 64, mean (ix2 (i 0) k) * wl (ix2 k (i 1)))
    + ∑ k : Fin 64, x (ix2 (i 0) k) * wr (ix2 k (i 1))) + b (i 1)) 0

/-- The larger of any extended real and one is not zero. -/
theorem max_one_ne_zero (d : EReal) : max d 1 ≠ 0 :=
  ne_of_gt (lt_of_lt_of_le zero_lt_one (le_max_right d 1))

/-- Multiplying by the reciprocal of `max d 1` is dividing by it, for all extended reals `a` and `d`. -/
theorem mul_recip_eq_div (a d : EReal) : a * Ideal.div 1 (max d 1) = Ideal.div a (max d 1) := by
  unfold Ideal.div
  rw [if_neg (max_one_ne_zero d), if_neg (max_one_ne_zero d), one_mul]

/-- The same with the two ones written as the float word for `1.0`. -/
theorem mul_recip_eq_div_word (a d : EReal) :
    a * Ideal.div (Ideal.ofBits .f32 0x3F800000#32) (max d (Ideal.ofBits .f32 0x3F800000#32))
      = Ideal.div a (max d (Ideal.ofBits .f32 0x3F800000#32)) := by
  rw [Ideal.ofBits_one_f32]; exact mul_recip_eq_div a d

/-- Adding the bias before or after the second product gives the same sum: addition of extended reals is
    commutative and associative. -/
theorem add_bias_swap (p q b : EReal) : (p + b) + q = (p + q) + b := add_right_comm p b q

end Cert.Sage

end
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.Region0Value.lean ====
/-
  What the first layer's launch leaves in its result array: the layer's formula of the arrays the launch finds.

  The launch runs over 50 points. At each point the body reads a block of 4000 rows of the neighbour means and the
  same 4000 rows of the node features, the two whole 32 × 64 weight matrices and the whole bias row, and stores
      max ( (means · Wl + features · Wr) + bias , 0 )
  into the block of the same 4000 rows of the result. At the exact values the casts to bf16 are the identity and each
  product into the zero accumulator is the finite sum over the 32 contracted channels, so the stored block is, entry
  by entry, the layer's formula read at the block's rows. Hence each point writes back its block of the layer's
  result; the 50 blocks cover the 200000 rows (row `r` lies in block `r / 4000`); and the whole result array is the
  layer of the arrays as the launch finds them, whatever these hold.
-/
import proofs.«111169_j2765958938745_1_alg».proof.Proof.Gen.KernelIdeal.Frame
import proofs.«111169_j2765958938745_1_alg».proof.Proof.SageSpec
import proofs.«111169_j2765958938745_1_alg».proof.Proof.LibPlainProduct
import Idealize.ShloMosaic.Lib.Pipeline.Value
import Idealize.ShloMosaic.Lib.ValueLayout
import Idealize.ShloMosaic.PureOps.Ideal.Laws

set_option maxRecDepth 16384

noncomputable section

namespace Cert.KernelIdeal.Sage

open scoped BigOperators
open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## The payload at an entry -/

/-- The launch's product of a 4000 × 32 block with a 32 × 64 matrix into the zero accumulator, at entry `(p, j)`. -/
theorem product_apply (a : FVec Ideal S4000x32 .bf16) (w : FVec Ideal S32x64 .bf16) (p : Fin 4000) (j : Fin 64) :
    matmul dot_S4000x32_S32x64_S4000x64_1_0_0_1_n_n none a w (constant S4000x64 .f32 0x00000000#32) (ix2 p j)
      = ∑ k : Fin 32, a (ix2 p k) * w (ix2 k j) :=
  Cert.LibPlainProduct.matmul_zero_plain_apply (M := 4000) (K := 32) (N := 64) a w none p j

/-- What the body stores, at entry `(p, j)` of the block. -/
theorem payload_apply (x0 x1 : Vec Ideal S4000x32 .f32) (x2 x4 : Vec Ideal S32x64 .f32) (x3 : Vec Ideal S1x64 .f32)
    (p : Fin 4000) (j : Fin 64) :
    k0_pay1 x0 x1 x2 x4 x3 (ix2 p j)
      = max (((∑ k : Fin 32, x0 (ix2 p k) * x2 (ix2 k j)) + ∑ k : Fin 32, x1 (ix2 p k) * x4 (ix2 k j))
          + x3 (ix2 0 j)) 0 := by
  unfold k0_pay1
  simp only [shapeCast_self]
  rw [maximumf_apply, addf_apply, addf_apply, broadcast_apply, product_apply, product_apply,
    broadcastTo_1b_ab_apply]
  simp only [truncf_apply]
  show max _ (Ideal.ofBits .f32 0x00000000#32) = _
  rw [Ideal.ofBits_zero_f32]

/-- A block whose rows are rows of the arrays, against the whole weight and bias arrays, gives the layer's entry. -/
theorem block_entry (mean x : (⟨2, ![200000, 32]⟩ : Shape).Idx → EReal) (wl wr : (⟨2, ![32, 64]⟩ : Shape).Idx → EReal)
    (bias : (⟨2, ![1, 64]⟩ : Shape).Idx → EReal)
    (x0 x1 : Vec Ideal S4000x32 .f32) (x2 x4 : Vec Ideal S32x64 .f32) (x3 : Vec Ideal S1x64 .f32)
    (p : Fin 4000) (j : Fin 64) (r : Fin 200000)
    (h0 : ∀ k : Fin 32, x0 (ix2 p k) = mean (ix2 r k)) (h1 : ∀ k : Fin 32, x1 (ix2 p k) = x (ix2 r k))
    (h2 : x2 = wl) (h4 : x4 = wr) (h3 : x3 = bias) :
    k0_pay1 x0 x1 x2 x4 x3 (ix2 p j) = Cert.Sage.layer32 mean x wl wr (fun j => bias (ix2 0 j)) (ix2 r j) := by
  rw [payload_apply]
  subst h2 h4 h3
  show _ = max (((∑ k : Fin 32, mean (ix2 r k) * x2 (ix2 k j)) + ∑ k : Fin 32, x (ix2 r k) * x4 (ix2 k j))
    + x3 (ix2 0 j)) 0
  simp only [h0, h1]

/-! ## The windows' blocks as parts of the arrays -/

theorem zero_offsets : (![0, 0] : Fin 2 → Nat) = fun _ => 0 := funext fun a => by fin_cases a <;> rfl

/-- The printed index maps, decided over the grid: the mean's, the features' and the result's blocks sit at the same
    block row, one of the 50, in block column 0; the two weight matrices and the bias row are block (0, 0) at every
    point. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 49 ∧ win0_5.index t (1 : Fin 2) = 0 :=
  (by decide +kernel : ∀ t : Fin grid0.N, _)

/-- Every one of the 50 block rows is some point's. -/
theorem index_onto : ∀ q : Fin 50, ∃ t : Fin cfg0.N, win0_5.index t = ![q.val, 0] :=
  (by decide +kernel : ∀ q : Fin 50, ∃ t : Fin grid0.N, win0_5.index t = ![q.val, 0])

/-- The mean's block at point `t` is rows `4000 q … 4000 q + 3999` of the mean array, `q` the point's block row. -/
theorem mean_block_apply (c : Dev nD) (t : Fin cfg0.N) (p : Fin 4000) (k : Fin 32) (r : Fin 200000)
    (hr : r.val = win0_0.index t (0 : Fin 2) * 4000 + p.val) (hc : win0_0.index t (1 : Fin 2) = 0) :
    (iblk0 V c 0 t : Vec Ideal S4000x32 .f32) (ix2 p k)
      = (V c main_v24 : (⟨2, ![200000, 32]⟩ : Shape).Idx → EReal) (ix2 r k) := by
  unfold iblk0
  show V c main_v24 (((cfg0.win 0).blk t).view.emb (ix2 p k)) = _
  congr 1
  funext a
  apply Fin.ext
  match a with
  | ⟨0, _⟩ => show win0_0.index t (0 : Fin 2) * 4000 + 1 * p.val = r.val; omega
  | ⟨1, _⟩ => show win0_0.index t (1 : Fin 2) * 32 + 1 * k.val = k.val; omega

/-- The features' block likewise. -/
theorem feature_block_apply (c : Dev nD) (t : Fin cfg0.N) (p : Fin 4000) (k : Fin 32) (r : Fin 200000)
    (hr : r.val = win0_1.index t (0 : Fin 2) * 4000 + p.val) (hc : win0_1.index t (1 : Fin 2) = 0) :
    (iblk0 V c 1 t : Vec Ideal S4000x32 .f32) (ix2 p k)
      = (V c main_arg0 : (⟨2, ![200000, 32]⟩ : Shape).Idx → EReal) (ix2 r k) := by
  unfold iblk0
  show V c main_arg0 (((cfg0.win 1).blk t).view.emb (ix2 p k)) = _
  congr 1
  funext a
  apply Fin.ext
  match a with
  | ⟨0, _⟩ => show win0_1.index t (0 : Fin 2) * 4000 + 1 * p.val = r.val; omega
  | ⟨1, _⟩ => show win0_1.index t (1 : Fin 2) * 32 + 1 * k.val = k.val; omega

/-- The first weight matrix's block is the whole matrix at every point. -/
theorem wl_block_eq (c : Dev nD) (t : Fin cfg0.N)
    (h0 : win0_2.index t (0 : Fin 2) = 0) (h1 : win0_2.index t (1 : Fin 2) = 0) :
    (iblk0 V c 2 t : Vec Ideal S32x64 .f32) = (V c main_v25 : (⟨2, ![32, 64]⟩ : Shape).Idx → EReal) := by
  unfold iblk0
  funext y
  show V c main_v25 (((cfg0.win 2).blk t).view.emb y) = _
  congr 1
  funext a
  apply Fin.ext
  match a with
  | ⟨0, _⟩ => show win0_2.index t (0 : Fin 2) * 32 + 1 * (y 0).val = (y 0).val; omega
  | ⟨1, _⟩ => show win0_2.index t (1 : Fin 2) * 64 + 1 * (y 1).val = (y 1).val; omega

/-- So is the bias row's. -/
theorem bias_block_eq (c : Dev nD) (t : Fin cfg0.N)
    (h0 : win0_3.index t (0 : Fin 2) = 0) (h1 : win0_3.index t (1 : Fin 2) = 0) :
    (iblk0 V c 3 t : Vec Ideal S1x64 .f32) = (V c main_call0_v0 : (⟨2, ![1, 64]⟩ : Shape).Idx → EReal) := by
  unfold iblk0
  funext y
  show V c main_call0_v0 (((cfg0.win 3).blk t).view.emb y) = _
  congr 1
  funext a
  apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- And the second weight matrix's. -/
theorem wr_block_eq (c : Dev nD) (t : Fin cfg0.N)
    (h0 : win0_4.index t (0 : Fin 2) = 0) (h1 : win0_4.index t (1 : Fin 2) = 0) :
    (iblk0 V c 4 t : Vec Ideal S32x64 .f32) = (V c main_v26 : (⟨2, ![32, 64]⟩ : Shape).Idx → EReal) := by
  unfold iblk0
  funext y
  show V c main_v26 (((cfg0.win 4).blk t).view.emb y) = _
  congr 1
  funext a
  apply Fin.ext
  match a with
  | ⟨0, _⟩ => show win0_4.index t (0 : Fin 2) * 32 + 1 * (y 0).val = (y 0).val; omega
  | ⟨1, _⟩ => show win0_4.index t (1 : Fin 2) * 64 + 1 * (y 1).val = (y 1).val; omega

/-! ## From the blocks to the array -/

/-- What point `t` writes back is its block of the layer's result, the layer taken of the arrays the launch finds. -/
theorem flushed_eq (c : Dev nD) (t : Fin cfg0.N) :
    (dat0 (F := Ideal) V c).flushed 5 t
      = ((cfg0.win 5).blk t).view.read (Elt Ideal)
          (Cert.Sage.layer32 (V c main_v24) (V c main_arg0) (V c main_v25) (V c main_v26)
            (fun j => V c main_call0_v0 (ix2 0 j))) := by
  show (cfg0.win 5).cut (grid0.coords t) ((dat0 V c).after 5 t) = _
  rw [after0_5]
  unfold out0_5
  rw [View.canon_unit_zero zero_offsets]
  simp only [View.ld_unit_zero (S := S4000x32) zero_offsets, View.ld_unit_zero (S := S32x64) zero_offsets,
    View.ld_unit_zero (S := S1x64) zero_offsets]
  obtain ⟨e0, e1, e2, e3, e4, e5, e6, e7, e8, e9, e10, e11⟩ := index_facts t
  funext y
  have hp : (y 0).val < 4000 := (y 0).isLt
  have hj : (y 1).val < 64 := (y 1).isLt
  have hr : win0_5.index t (0 : Fin 2) * 4000 + (y 0).val < 200000 := by omega
  have ey : (cfg0.win 5).xinj (grid0.coords t) y = (ix2 ⟨(y 0).val, hp⟩ ⟨(y 1).val, hj⟩ : S4000x64.Idx) :=
    funext fun a => Fin.ext (by
      match a with
      | ⟨0, _⟩ => rfl
      | ⟨1, _⟩ => rfl)
  have ei : ((cfg0.win 5).blk t).view.emb y
      = (ix2 ⟨win0_5.index t (0 : Fin 2) * 4000 + (y 0).val, hr⟩ ⟨(y 1).val, hj⟩ : (⟨2, ![200000, 64]⟩ : Shape).Idx) :=
    funext fun a => Fin.ext (by
      match a with
      | ⟨0, _⟩ => show win0_5.index t (0 : Fin 2) * 4000 + 1 * (y 0).val = win0_5.index t (0 : Fin 2) * 4000 + (y 0).val; omega
      | ⟨1, _⟩ => show win0_5.index t (1 : Fin 2) * 64 + 1 * (y 1).val = (y 1).val; omega)
  show k0_pay1 (iblk0 V c 0 t) (iblk0 V c 1 t) (iblk0 V c 2 t) (iblk0 V c 4 t) (iblk0 V c 3 t)
      ((cfg0.win 5).xinj (grid0.coords t) y)
    = Cert.Sage.layer32 (V c main_v24) (V c main_arg0) (V c main_v25) (V c main_v26)
        (fun j => V c main_call0_v0 (ix2 0 j)) (((cfg0.win 5).blk t).view.emb y)
  rw [ey, ei]
  exact block_entry (V c main_v24) (V c main_arg0) (V c main_v25) (V c main_v26) (V c main_call0_v0)
    (iblk0 V c 0 t) (iblk0 V c 1 t) (iblk0 V c 2 t) (iblk0 V c 4 t) (iblk0 V c 3 t) _ _ _
    (fun k => mean_block_apply V c t _ k _
      (by show win0_5.index t (0 : Fin 2) * 4000 + (y 0).val = win0_0.index t (0 : Fin 2) * 4000 + (y 0).val; rw [e0]) e1)
    (fun k => feature_block_apply V c t _ k _
      (by show win0_5.index t (0 : Fin 2) * 4000 + (y 0).val = win0_1.index t (0 : Fin 2) * 4000 + (y 0).val; rw [e2]) e3)
    (wl_block_eq V c t e4 e5) (wr_block_eq V c t e8 e9) (bias_block_eq V c t e6 e7)

/-- An index of the result array is in point `t`'s block iff each coordinate is in the block's range on its axis. -/
theorem mem_block (t : Fin cfg0.N) (i : (⟨2, ![200000, 64]⟩ : Shape).Idx) :
    i ∈ ((cfg0.win 5).blk t).view.set
      ↔ ∀ a : Fin 2, win0_5.index t a * S4000x64.size a ≤ (i a).val
          ∧ (i a).val < win0_5.index t a * S4000x64.size a + S4000x64.size a := by
  show i ∈ ((View.whole main_v27).slice (win0_5.rect t)).set ↔ _
  rw [View.set_slice_whole, Rect.mem_set_unit]
  exact Iff.rfl

/-- Row `r` of the result array is in the block of the point whose block row is `r / 4000`: the 50 blocks of 4000
    rows cover the 200000 rows. -/
theorem covered (i : (⟨2, ![200000, 64]⟩ : Shape).Idx) :
    ∃ t : Fin cfg0.N, (cfg0.win 5).flush t = true ∧ i ∈ ((cfg0.win 5).blk t).view.set := by
  have hi0 : (i 0).val < 200000 := (i 0).isLt
  have hi1 : (i 1).val < 64 := (i 1).isLt
  obtain ⟨t, ht⟩ := index_onto ⟨(i 0).val / 4000, by omega⟩
  have q0 : win0_5.index t (0 : Fin 2) = (i 0).val / 4000 := congrFun ht 0
  have q1 : win0_5.index t (1 : Fin 2) = 0 := congrFun ht 1
  refine ⟨t, flush0_5 t, ?_⟩
  rw [mem_block]
  intro a
  match a with
  | ⟨0, _⟩ =>
    show win0_5.index t (0 : Fin 2) * 4000 ≤ (i 0).val ∧ (i 0).val < win0_5.index t (0 : Fin 2) * 4000 + 4000
    omega
  | ⟨1, _⟩ =>
    show win0_5.index t (1 : Fin 2) * 64 ≤ (i 1).val ∧ (i 1).val < win0_5.index t (1 : Fin 2) * 64 + 64
    omega

/-- THE RESULT ARRAY after the launch: the first layer of the arrays the launch finds. -/
theorem region0_value (c : Dev nD) :
    (dat0 (F := Ideal) V c).arrAt 5 cfg0.N
      = Cert.Sage.layer32 (V c main_v24) (V c main_arg0) (V c main_v25) (V c main_v26)
          (fun j => V c main_call0_v0 (ix2 0 j)) :=
  (dat0 (F := Ideal) V c).arrAt_eq_of_cover 5
    (Cert.Sage.layer32 (V c main_v24) (V c main_arg0) (V c main_v25) (V c main_v26)
      (fun j => V c main_call0_v0 (ix2 0 j)))
    (fun t _ => flushed_eq V c t) covered

end Cert.KernelIdeal.Sage

end
-- ==== Proof.Region1Value.lean ====
/-
  What the second layer's launch leaves in its result array: the layer's formula of the arrays the launch finds.

  The launch walks 50 grid points; point `t` works on rows `4000·t … 4000·t + 3999` of the 200000-row arrays. At each
  point the body reads the point's 4000 rows of the neighbour mean and of the node features, the two whole `64 × 64`
  weight matrices and the whole bias row, and stores at entry `(p, j)` of its `4000 × 64` block
      max ( (∑ₖ mean (p, k) · wl (k, j)  +  ∑ₖ x (p, k) · wr (k, j))  +  bias (0, j) ,  0 ).
  On the extended reals the roundings to bf16 on the way into the two products are the identity, a product accumulated
  into the zero array is the plain finite sum over the contracted axis, the bias row repeated down the rows reads its
  one row, and the word of `0.0` is zero. Row `p` of block `t` is row `4000·t + p` of the arrays, while the weights
  and the bias are read where they lie; so what point `t` writes back is block `t` of the layer's formula of the whole
  arrays. Row `r` lies in the block of point `r / 4000` and every point writes back, so the blocks cover the result
  array, and it ends holding the formula at every entry.
-/
import proofs.«111169_j2765958938745_1_alg».proof.Proof.Gen.KernelIdeal.Frame
import proofs.«111169_j2765958938745_1_alg».proof.Proof.SageSpec
import proofs.«111169_j2765958938745_1_alg».proof.Proof.LibPlainProduct
import Idealize.ShloMosaic.Lib.Pipeline.Value
import Idealize.ShloMosaic.Lib.ValueLayout
import Idealize.ShloMosaic.PureOps.Ideal.Laws

set_option maxRecDepth 16384

noncomputable section

namespace Cert.KernelIdeal.Sage

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

namespace Second

/-! ## The body's stored value at one entry of a block -/

/-- A product of the layer, accumulated into the zero array, at entry `(p, j)`: the sum over the 64 input channels
    of `a (p, k) · w (k, j)`. The printed dimension numbers are those of a plain `4000 × 64` by `64 × 64` product. -/
theorem product_entry (a : FVec Ideal S4000x64 .bf16) (w : FVec Ideal S64x64 .bf16) (p : Fin 4000) (j : Fin 64) :
    matmul dot_S4000x64_S64x64_S4000x64_1_0_0_1_n_n none a w (constant (F := Ideal) S4000x64 .f32 0x00000000#32) (ix2 p j)
      = ∑ k : Fin 64, a (ix2 p k) * w (ix2 k j) :=
  Cert.LibPlainProduct.matmul_zero_plain_apply (M := 4000) (K := 64) (N := 64) a w none p j

/-- The bias row repeated down the 4000 rows holds, at `(p, j)`, the row's entry `j`. -/
theorem bias_row_entry (x3 : Vec Ideal S1x64 .f32) (p : Fin 4000) (j : Fin 64) :
    broadcastTo S4000x64 x3 broadcasts_S1x64_S4000x64 (ix2 p j) = x3 (ix2 0 j) :=
  broadcastTo_1b_ab_apply (a := 4000) (b := 64) x3 broadcasts_S1x64_S4000x64 p j

/-- What the body stores at entry `(p, j)`, from the blocks it loaded (`x0` the mean's rows, `x1` the features' rows,
    `x2` and `x4` the two weight matrices, `x3` the bias row): the two products added, the bias added, and the larger of
    that and zero. The casts to the same shape and the roundings to bf16 change no extended real. -/
theorem body_entry (x0 x1 : Vec Ideal S4000x64 .f32) (x2 x4 : Vec Ideal S64x64 .f32) (x3 : Vec Ideal S1x64 .f32)
    (p : Fin 4000) (j : Fin 64) :
    k1_pay1 x0 x1 x2 x4 x3 (ix2 p j)
      = max (((∑ k : Fin 64, x0 (ix2 p k) * x2 (ix2 k j)) + ∑ k : Fin 64, x1 (ix2 p k) * x4 (ix2 k j)) + x3 (ix2 0 j)) 0 := by
  unfold k1_pay1
  simp only [shapeCast_self]
  rw [maximumf_apply, addf_apply, addf_apply, broadcast_apply]
  have e1 := product_entry (truncf .bf16 x0 bitsLt_bf16_f32) (truncf .bf16 x2 bitsLt_bf16_f32) p j
  have e2 := product_entry (truncf .bf16 x1 bitsLt_bf16_f32) (truncf .bf16 x4 bitsLt_bf16_f32) p j
  have e3 := bias_row_entry x3 p j
  have ez : (FloatOps.ofBits (F := Ideal) .f32 0x00000000#32) = (0 : EReal) := Ideal.ofBits_zero_f32
  rw [e1, e2, e3, ez]
  rfl

/-- If the loaded blocks hold, along row `p` and column `j`, what the whole arrays hold along row `i 0` and column
    `i 1`, then the body's stored value at `(p, j)` is the layer's formula of the whole arrays at `i`. -/
theorem layer_of_blocks (M X : S200000x64.Idx → EReal) (Wl Wr : S64x64.Idx → EReal) (B : S1x64.Idx → EReal)
    (x0 x1 : Vec Ideal S4000x64 .f32) (x2 x4 : Vec Ideal S64x64 .f32) (x3 : Vec Ideal S1x64 .f32)
    (p : Fin 4000) (j : Fin 64) (i : S200000x64.Idx)
    (h0 : ∀ k : Fin 64, x0 (ix2 p k) = M (ix2 (i 0) k)) (h1 : ∀ k : Fin 64, x1 (ix2 p k) = X (ix2 (i 0) k))
    (h2 : ∀ k : Fin 64, x2 (ix2 k j) = Wl (ix2 k (i 1))) (h4 : ∀ k : Fin 64, x4 (ix2 k j) = Wr (ix2 k (i 1)))
    (h3 : x3 (ix2 0 j) = B (ix2 0 (i 1))) :
    k1_pay1 x0 x1 x2 x4 x3 (ix2 p j) = Cert.Sage.layer64 M X Wl Wr (fun j => B (ix2 0 j)) i := by
  rw [body_entry]
  unfold Cert.Sage.layer64
  simp only [h0, h1, h2, h4, h3]

/-! ## Where each block lies in its array -/

/-- A rectangle that starts at the origin has offset zero on both axes. -/
theorem zero_offsets : (![0, 0] : Fin 2 → Nat) = fun _ => 0 := funext fun a => by fin_cases a <;> rfl

/-- The block indices over the grid: the mean's, the features' and the result's blocks are block `t` along the rows
    and the one block along the columns; the weights' and the bias's blocks are the one block on both axes. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry `(p, k)` of the mean's block at point `t` is entry `(4000·t + p, k)` of the mean. -/
theorem mean_block (c : Dev nD) (t : Fin cfg1.N) (p : Fin 4000) (k : Fin 64) (i : S200000x64.Idx)
    (h0 : (i 0).val = t.val * 4000 + p.val) (h1 : (i 1).val = k.val) :
    (iblk1 V c 0 t : Vec Ideal S4000x64 .f32) (ix2 p k) = (V c main_v40 : S200000x64.Idx → EReal) i := by
  obtain ⟨e0, e1, -⟩ := block_indices t
  unfold iblk1
  show V c main_v40 (((cfg1.win 0).blk t).view.emb (ix2 p k)) = V c main_v40 i
  congr 1
  funext a
  apply Fin.ext
  match a with
  | ⟨0, _⟩ => show win1_0.index t (0 : Fin 2) * 4000 + 1 * p.val = (i 0).val; omega
  | ⟨1, _⟩ => show win1_0.index t (1 : Fin 2) * 64 + 1 * k.val = (i 1).val; omega

/-- Entry `(p, k)` of the features' block at point `t` is entry `(4000·t + p, k)` of the features. -/
theorem features_block (c : Dev nD) (t : Fin cfg1.N) (p : Fin 4000) (k : Fin 64) (i : S200000x64.Idx)
    (h0 : (i 0).val = t.val * 4000 + p.val) (h1 : (i 1).val = k.val) :
    (iblk1 V c 1 t : Vec Ideal S4000x64 .f32) (ix2 p k) = (V c main_v27 : S200000x64.Idx → EReal) i := by
  obtain ⟨-, -, e0, e1, -⟩ := block_indices t
  unfold iblk1
  show V c main_v27 (((cfg1.win 1).blk t).view.emb (ix2 p k)) = V c main_v27 i
  congr 1
  funext a
  apply Fin.ext
  match a with
  | ⟨0, _⟩ => show win1_1.index t (0 : Fin 2) * 4000 + 1 * p.val = (i 0).val; omega
  | ⟨1, _⟩ => show win1_1.index t (1 : Fin 2) * 64 + 1 * k.val = (i 1).val; omega

/-- The block of the mean's weights is the whole matrix at every point. -/
theorem mean_weights_block (c : Dev nD) (t : Fin cfg1.N) (k j : Fin 64) (i : S64x64.Idx)
    (h0 : (i 0).val = k.val) (h1 : (i 1).val = j.val) :
    (iblk1 V c 2 t : Vec Ideal S64x64 .f32) (ix2 k j) = (V c main_v41 : S64x64.Idx → EReal) i := by
  obtain ⟨-, -, -, -, e0, e1, -⟩ := block_indices t
  unfold iblk1
  show V c main_v41 (((cfg1.win 2).blk t).view.emb (ix2 k j)) = V c main_v41 i
  congr 1
  funext a
  apply Fin.ext
  match a with
  | ⟨0, _⟩ => show win1_2.index t (0 : Fin 2) * 64 + 1 * k.val = (i 0).val; omega
  | ⟨1, _⟩ => show win1_2.index t (1 : Fin 2) * 64 + 1 * j.val = (i 1).val; omega

/-- The bias's block is the whole row at every point. -/
theorem bias_block (c : Dev nD) (t : Fin cfg1.N) (j : Fin 64) (i : S1x64.Idx)
    (h0 : (i 0).val = 0) (h1 : (i 1).val = j.val) :
    (iblk1 V c 3 t : Vec Ideal S1x64 .f32) (ix2 0 j) = (V c main_call1_v0 : S1x64.Idx → EReal) i := by
  obtain ⟨-, -, -, -, -, -, e0, e1, -⟩ := block_indices t
  unfold iblk1
  show V c main_call1_v0 (((cfg1.win 3).blk t).view.emb (ix2 0 j)) = V c main_call1_v0 i
  congr 1
  funext a
  apply Fin.ext
  match a with
  | ⟨0, _⟩ => show win1_3.index t (0 : Fin 2) * 1 + 1 * 0 = (i 0).val; omega
  | ⟨1, _⟩ => show win1_3.index t (1 : Fin 2) * 64 + 1 * j.val = (i 1).val; omega

/-- The block of the features' weights is the whole matrix at every point. -/
theorem features_weights_block (c : Dev nD) (t : Fin cfg1.N) (k j : Fin 64) (i : S64x64.Idx)
    (h0 : (i 0).val = k.val) (h1 : (i 1).val = j.val) :
    (iblk1 V c 4 t : Vec Ideal S64x64 .f32) (ix2 k j) = (V c main_v42 : S64x64.Idx → EReal) i := by
  obtain ⟨-, -, -, -, -, -, -, -, e0, e1, -⟩ := block_indices t
  unfold iblk1
  show V c main_v42 (((cfg1.win 4).blk t).view.emb (ix2 k j)) = V c main_v42 i
  congr 1
  funext a
  apply Fin.ext
  match a with
  | ⟨0, _⟩ => show win1_4.index t (0 : Fin 2) * 64 + 1 * k.val = (i 0).val; omega
  | ⟨1, _⟩ => show win1_4.index t (1 : Fin 2) * 64 + 1 * j.val = (i 1).val; omega

/-! ## From the blocks to the array -/

/-- What point `t` writes back is block `t` of the layer's formula of the arrays the launch finds: entry `(p, j)` of
    the body's result is the formula at `(4000·t + p, j)`. -/
theorem written_back (c : Dev nD) (t : Fin cfg1.N) :
    (dat1 (F := Ideal) V c).flushed 5 t = ((cfg1.win 5).blk t).view.read (Elt Ideal)
      (Cert.Sage.layer64 (V c main_v40) (V c main_v27) (V c main_v41) (V c main_v42) (fun j => V c main_call1_v0 (ix2 0 j))) := by
  show (cfg1.win 5).cut (grid1.coords t) ((dat1 V c).after 5 t) = _
  rw [after1_5]
  unfold out1_5
  rw [View.canon_unit_zero zero_offsets]
  simp only [View.ld_unit_zero (S := S4000x64) zero_offsets, View.ld_unit_zero (S := S64x64) zero_offsets,
    View.ld_unit_zero (S := S1x64) zero_offsets]
  funext y
  obtain ⟨p, j, rfl⟩ : ∃ (p : Fin 4000) (j : Fin 64), y = ix2 p j := ⟨y 0, y 1, eq_ix2 y⟩
  obtain ⟨-, -, -, -, -, -, -, -, -, -, e0, e1⟩ := block_indices t
  have r0 : ((((cfg1.win 5).blk t).view.emb (ix2 p j)) 0).val = t.val * 4000 + p.val := by
    show win1_5.index t (0 : Fin 2) * 4000 + 1 * p.val = _; omega
  have r1 : ((((cfg1.win 5).blk t).view.emb (ix2 p j)) 1).val = j.val := by
    show win1_5.index t (1 : Fin 2) * 64 + 1 * j.val = _; omega
  exact layer_of_blocks (V c main_v40) (V c main_v27) (V c main_v41) (V c main_v42) (V c main_call1_v0)
    (iblk1 V c 0 t) (iblk1 V c 1 t) (iblk1 V c 2 t) (iblk1 V c 4 t) (iblk1 V c 3 t) p j
    (((cfg1.win 5).blk t).view.emb (ix2 p j))
    (fun k => mean_block V c t p k _ r0 rfl) (fun k => features_block V c t p k _ r0 rfl)
    (fun k => mean_weights_block V c t k j _ rfl r1) (fun k => features_weights_block V c t k j _ rfl r1)
    (bias_block V c t j _ rfl r1)

/-- An entry of the result array lies in point `t`'s block exactly when each coordinate is in the block's range. -/
theorem mem_result_block (t : Fin cfg1.N) (i : S200000x64.Idx) :
    i ∈ ((cfg1.win 5).blk t).view.set ↔ ∀ a : Fin 2, win1_5.index t a * S4000x64.size a ≤ (i a).val
      ∧ (i a).val < win1_5.index t a * S4000x64.size a + S4000x64.size a := by
  show i ∈ ((View.whole main_v43).slice (win1_5.rect t)).set ↔ _
  rw [View.set_slice_whole, Rect.mem_set_unit]
  exact Iff.rfl

/-- Every entry of the result array is in some point's block, and that point writes back: row `r` is in the block of
    point `r / 4000`, which is below 50 because `r` is below 200000. -/
theorem rows_covered (i : S200000x64.Idx) :
    ∃ t : Fin cfg1.N, (cfg1.win 5).flush t = true ∧ i ∈ ((cfg1.win 5).blk t).view.set := by
  have hi0 : (i 0).val < 200000 := (i 0).isLt
  have hi1 : (i 1).val < 64 := (i 1).isLt
  have hN : cfg1.N = 50 := N_1
  obtain ⟨t, ht⟩ : ∃ t : Fin cfg1.N, t.val = (i 0).val / 4000 := ⟨⟨(i 0).val / 4000, by rw [hN]; omega⟩, rfl⟩
  obtain ⟨-, -, -, -, -, -, -, -, -, -, e0, e1⟩ := block_indices t
  refine ⟨t, flush1_5 t, ?_⟩
  rw [mem_result_block]
  intro a
  match a with
  | ⟨0, _⟩ =>
    show win1_5.index t (0 : Fin 2) * 4000 ≤ (i 0).val ∧ (i 0).val < win1_5.index t (0 : Fin 2) * 4000 + 4000
    omega
  | ⟨1, _⟩ =>
    show win1_5.index t (1 : Fin 2) * 64 ≤ (i 1).val ∧ (i 1).val < win1_5.index t (1 : Fin 2) * 64 + 64
    omega

end Second

/-- After the launch the result array holds the second layer's formula of the arrays the launch found, at every entry:
    each point writes back its block of that one formula, and the blocks cover the array. -/
theorem region1_value (c : Dev nD) :
    (dat1 (F := Ideal) V c).arrAt 5 cfg1.N
      = Cert.Sage.layer64 (V c main_v40) (V c main_v27) (V c main_v41) (V c main_v42)
          (fun j => V c main_call1_v0 (ix2 0 j)) :=
  (dat1 V c).arrAt_eq_of_cover 5
    (Cert.Sage.layer64 (V c main_v40) (V c main_v27) (V c main_v41) (V c main_v42) (fun j => V c main_call1_v0 (ix2 0 j)))
    (fun t _ => Second.written_back V c t) Second.rows_covered

end Cert.KernelIdeal.Sage

end
-- ==== Proof.LibBroadcastRead.lean ====
/-
  The host's two-step broadcasts of a vector into a rectangle, read at one entry.

  `jnp` lays a vector along a rectangle in two steps: first it gives the vector a unit axis (a row `[1, m]` or a column
  `[n, 1]`), then it repeats that along the unit axis. Read at entry `(p, q)`, a row repeated down the rows holds the
  row's entry `q`, and a column repeated along the columns holds the column's entry `p`; the unit-axis step changes
  nothing but the index's shape. Stated for every size, so a program's printed broadcast is an instance.
-/
import Idealize.ShloMosaic.Lib.ValueIdx
import Idealize.ShloMosaic.Lib.Pipeline.Value

namespace Cert.LibBroadcastRead

open Idealize.ShloMosaic Idealize.ShloMosaic.ValueIdx Idealize.ShloMosaic.Pipeline

variable {α : Type} {n m : ℕ}

/-- A vector as a one-row matrix: entry `(0, q)` is the vector's entry `q`. -/
theorem vec_as_row_apply (h : (⟨1, ![m]⟩ : Shape).BroadcastsInDim ⟨2, ![1, m]⟩ ![1]) (v : (⟨1, ![m]⟩ : Shape).Idx → α)
    (u : Fin 1) (q : Fin m) : broadcastInDim ⟨2, ![1, m]⟩ ![1] h v (ix2 u q) = v (ix1 q) :=
  broadcastInDim_apply _ h v _ _ fun a => by
    match a with
    | ⟨0, _⟩ =>
      show q.val = if m = 1 then 0 else q.val
      have := q.isLt; split <;> omega

/-- A vector as a one-column matrix: entry `(p, 0)` is the vector's entry `p`. -/
theorem vec_as_col_apply (h : (⟨1, ![n]⟩ : Shape).BroadcastsInDim ⟨2, ![n, 1]⟩ ![0]) (v : (⟨1, ![n]⟩ : Shape).Idx → α)
    (p : Fin n) (u : Fin 1) : broadcastInDim ⟨2, ![n, 1]⟩ ![0] h v (ix2 p u) = v (ix1 p) :=
  broadcastInDim_apply _ h v _ _ fun a => by
    match a with
    | ⟨0, _⟩ =>
      show p.val = if n = 1 then 0 else p.val
      have := p.isLt; split <;> omega

/-- A one-row matrix repeated down `n` rows: entry `(p, q)` is the row's entry `q`. -/
theorem row_down_apply (h : (⟨2, ![1, m]⟩ : Shape).BroadcastsInDim ⟨2, ![n, m]⟩ ![0, 1]) (v : (⟨2, ![1, m]⟩ : Shape).Idx → α)
    (p : Fin n) (q : Fin m) : broadcastInDim ⟨2, ![n, m]⟩ ![0, 1] h v (ix2 p q) = v (ix2 0 q) :=
  broadcastInDim_apply _ h v _ _ fun a => by
    match a with
    | ⟨0, _⟩ => show (0 : ℕ) = if (1 : ℕ) = 1 then 0 else p.val; rw [if_pos rfl]
    | ⟨1, _⟩ =>
      show q.val = if m = 1 then 0 else q.val
      have := q.isLt; split <;> omega

/-- A one-column matrix repeated along `m` columns: entry `(p, q)` is the column's entry `p`. -/
theorem col_along_apply (h : (⟨2, ![n, 1]⟩ : Shape).BroadcastsInDim ⟨2, ![n, m]⟩ ![0, 1]) (v : (⟨2, ![n, 1]⟩ : Shape).Idx → α)
    (p : Fin n) (q : Fin m) : broadcastInDim ⟨2, ![n, m]⟩ ![0, 1] h v (ix2 p q) = v (ix2 p 0) :=
  broadcastInDim_apply _ h v _ _ fun a => by
    match a with
    | ⟨0, _⟩ =>
      show p.val = if n = 1 then 0 else p.val
      have := p.isLt; split <;> omega
    | ⟨1, _⟩ => show (0 : ℕ) = if (1 : ℕ) = 1 then 0 else q.val; rw [if_pos rfl]

end Cert.LibBroadcastRead
-- ==== Proof.RefLayer.lean ====
/-
  The reference's two layers, read entry by entry: each is the layer formula of its own earlier stages.

  Entry `(r, j)` of the reference's first rectified stage is the larger of zero and
      (∑ₖ mean (r, k) · wl (k, j)  +  b j)  +  ∑ₖ x (r, k) · wr (k, j),
  where `mean` is the neighbour mean, `wl`, `wr` the two transposed weights and `b` the bias, laid as a row and
  repeated down the rows. The layer formula adds the bias after the second product instead of before it; addition of
  extended reals is commutative and associative, so the two are the same extended real. The second stage is the same
  with 64 input channels, reading the first stage's result as its node features.
-/
import proofs.«111169_j2765958938745_1_alg».proof.Proof.Gen.ReferenceIdeal.Read
import proofs.«111169_j2765958938745_1_alg».proof.Proof.SageSpec
import proofs.«111169_j2765958938745_1_alg».proof.Proof.LibPlainProduct
import proofs.«111169_j2765958938745_1_alg».proof.Proof.LibBroadcastRead
import Idealize.ShloMosaic.Lib.ValueLayout

noncomputable section

namespace Cert.ReferenceIdeal.Sage

open Idealize.ShloMosaic Idealize.ShloMosaic.TcCoe Idealize.SL.Sem Idealize.ShloMosaic.ValueIdx
open Cert.ReferenceIdeal Cert.ReferenceIdeal.Read

/-- The first product of layer 1 reads its left operand at `(r, k)`. -/
theorem lidx_v24 (r : Fin 200000) (j : Fin 64) (k : Fin 32) : lidx_main_v24 (ix2 r j) k = ix2 r k :=
  funext fun a => Fin.ext (by match a with | ⟨0, _⟩ => rfl | ⟨1, _⟩ => rfl)

/-- … and its right operand at `(k, j)`. -/
theorem ridx_v24 (r : Fin 200000) (j : Fin 64) (k : Fin 32) : ridx_main_v24 (ix2 r j) k = ix2 k j :=
  funext fun a => Fin.ext (by match a with | ⟨0, _⟩ => rfl | ⟨1, _⟩ => rfl)

/-- The second product of layer 1 reads its left operand at `(r, k)`. -/
theorem lidx_v29 (r : Fin 200000) (j : Fin 64) (k : Fin 32) : lidx_main_v29 (ix2 r j) k = ix2 r k :=
  funext fun a => Fin.ext (by match a with | ⟨0, _⟩ => rfl | ⟨1, _⟩ => rfl)

/-- … and its right operand at `(k, j)`. -/
theorem ridx_v29 (r : Fin 200000) (j : Fin 64) (k : Fin 32) : ridx_main_v29 (ix2 r j) k = ix2 k j :=
  funext fun a => Fin.ext (by match a with | ⟨0, _⟩ => rfl | ⟨1, _⟩ => rfl)

/-- The bias of layer 1, laid as a row and repeated down the rows, holds at `(r, j)` the bias's entry `j`. -/
theorem bias_v26 (r : Fin 200000) (j : Fin 64) : idx_main_v25 (idx_main_v26 (ix2 r j)) = ix1 j :=
  funext fun a => Fin.ext (by match a with | ⟨0, _⟩ => rfl)

theorem ref_layer1 (x0 : FVec Ideal S200000x32 .f32) (x1 : IVec S2x3200000 32) (x3 : FVec Ideal S64x32 .f32)
    (x4 : FVec Ideal S64 .f32) (x5 : FVec Ideal S64x32 .f32) :
    val_main_v31 (F := Ideal) x0 x1 x3 x4 x5
      = Cert.Sage.layer32 (val_main_v22 (F := Ideal) x0 x1) x0 (val_main_v23 (F := Ideal) x3) (val_main_v28 (F := Ideal) x5)
          (fun j => x4 (ix1 j)) := by
  funext i
  obtain ⟨r, j, rfl⟩ : ∃ (r : Fin 200000) (j : Fin 64), i = ix2 r j := ⟨i 0, i 1, eq_ix2 i⟩
  rw [val_main_v31_apply, val_main_v30_apply, val_main_v27_apply, val_main_v24_apply, val_main_v26_apply,
    val_main_v25_apply, val_main_v29_apply, val_main_call0_v0_apply, val_main_call0_cst_apply]
  simp only [lidx_v24, ridx_v24, lidx_v29, ridx_v29, bias_v26, Ideal.maximumf_def, Ideal.addf_def,
    Ideal.ofBits_def, Ideal.ofBits_zero_f32]
  rw [Cert.Sage.add_bias_swap]
  rfl

/-- The first product of layer 2 reads its left operand at `(r, k)`. -/
theorem lidx_v52 (r : Fin 200000) (j : Fin 64) (k : Fin 64) : lidx_main_v52 (ix2 r j) k = ix2 r k :=
  funext fun a => Fin.ext (by match a with | ⟨0, _⟩ => rfl | ⟨1, _⟩ => rfl)

/-- … and its right operand at `(k, j)`. -/
theorem ridx_v52 (r : Fin 200000) (j : Fin 64) (k : Fin 64) : ridx_main_v52 (ix2 r j) k = ix2 k j :=
  funext fun a => Fin.ext (by match a with | ⟨0, _⟩ => rfl | ⟨1, _⟩ => rfl)

/-- The second product of layer 2 reads its left operand at `(r, k)`. -/
theorem lidx_v57 (r : Fin 200000) (j : Fin 64) (k : Fin 64) : lidx_main_v57 (ix2 r j) k = ix2 r k :=
  funext fun a => Fin.ext (by match a with | ⟨0, _⟩ => rfl | ⟨1, _⟩ => rfl)

/-- … and its right operand at `(k, j)`. -/
theorem ridx_v57 (r : Fin 200000) (j : Fin 64) (k : Fin 64) : ridx_main_v57 (ix2 r j) k = ix2 k j :=
  funext fun a => Fin.ext (by match a with | ⟨0, _⟩ => rfl | ⟨1, _⟩ => rfl)

/-- The bias of layer 2, laid as a row and repeated down the rows, holds at `(r, j)` the bias's entry `j`. -/
theorem bias_v54 (r : Fin 200000) (j : Fin 64) : idx_main_v53 (idx_main_v54 (ix2 r j)) = ix1 j :=
  funext fun a => Fin.ext (by match a with | ⟨0, _⟩ => rfl)

theorem ref_layer2 (x0 : FVec Ideal S200000x32 .f32) (x1 : IVec S2x3200000 32) (x3 : FVec Ideal S64x32 .f32)
    (x4 : FVec Ideal S64 .f32) (x5 : FVec Ideal S64x32 .f32) (x6 : FVec Ideal S64x64 .f32) (x7 : FVec Ideal S64 .f32)
    (x8 : FVec Ideal S64x64 .f32) :
    val_main_v59 (F := Ideal) x0 x1 x3 x4 x5 x6 x7 x8
      = Cert.Sage.layer64 (val_main_v50 (F := Ideal) x0 x1 x3 x4 x5) (val_main_v31 (F := Ideal) x0 x1 x3 x4 x5)
          (val_main_v51 (F := Ideal) x6) (val_main_v56 (F := Ideal) x8) (fun j => x7 (ix1 j)) := by
  funext i
  obtain ⟨r, j, rfl⟩ : ∃ (r : Fin 200000) (j : Fin 64), i = ix2 r j := ⟨i 0, i 1, eq_ix2 i⟩
  rw [val_main_v59_apply, val_main_v58_apply, val_main_v55_apply, val_main_v52_apply, val_main_v54_apply,
    val_main_v53_apply, val_main_v57_apply, val_main_call1_v0_apply, val_main_call1_cst_apply]
  simp only [lidx_v52, ridx_v52, lidx_v57, ridx_v57, bias_v54, Ideal.maximumf_def, Ideal.addf_def,
    Ideal.ofBits_def, Ideal.ofBits_zero_f32]
  rw [Cert.Sage.add_bias_swap]
  rfl

end Cert.ReferenceIdeal.Sage

end
-- ==== Proof.KernelArgs.lean ====
/-
  The launch memory's argument arrays on a core, named once: node features, the edge list, the graph ids, and the
  weights and biases of the two layers and of the final linear map.
-/
import proofs.«111169_j2765958938745_1_alg».proof.Proof.Gen.KernelIdeal.Frame
import Idealize.ShloMosaic.PureOps.Ideal

noncomputable section

namespace Cert.KernelIdeal.Sage

open Idealize.ShloMosaic Idealize.ShloMosaic.TcCoe Idealize.SL.Sem
open Cert.KernelIdeal

variable (m : (ℓ : Loc nD τ sig) → Buf (Elt Ideal) ℓ) (c : Dev nD)

/-- Node features, `[200000, 32]`. -/
abbrev a0 := m ((c : Thread nD τ).loc main_arg0)
/-- The edge list, `[2, 3200000]`: sources in row 0, targets in row 1. -/
abbrev a1 := m ((c : Thread nD τ).loc main_arg1)
/-- The graph id of each node. -/
abbrev a2 := m ((c : Thread nD τ).loc main_arg2)
/-- Layer 1: neighbour weight, bias, self weight. -/
abbrev a3 := m ((c : Thread nD τ).loc main_arg3)
abbrev a4 := m ((c : Thread nD τ).loc main_arg4)
abbrev a5 := m ((c : Thread nD τ).loc main_arg5)
/-- Layer 2: neighbour weight, bias, self weight. -/
abbrev a6 := m ((c : Thread nD τ).loc main_arg6)
abbrev a7 := m ((c : Thread nD τ).loc main_arg7)
abbrev a8 := m ((c : Thread nD τ).loc main_arg8)
/-- The final linear map's weight and bias. -/
abbrev a9 := m ((c : Thread nD τ).loc main_arg9)
abbrev a10 := m ((c : Thread nD τ).loc main_arg10)

end Cert.KernelIdeal.Sage

end
-- ==== Proof.MeanLaw.lean ====
/-
  The neighbour mean, taken two ways.

  Let `A` be an `n × w` array of summed messages and `d` the vector of in-degrees. One program first forms the vector
  `1 / max d 1`, lays it along the columns and multiplies; the other lays `max d 1` along the columns and divides. Entry
  `(p, q)` of the first is `A (p, q) · (1 / max (d p) 1)`, of the second `A (p, q) / max (d p) 1`; these are the same
  extended real because `max (d p) 1` is never zero (the specification's `mul_recip_eq_div_word`). Stated for every size.
-/
import proofs.«111169_j2765958938745_1_alg».proof.Proof.SageSpec
import proofs.«111169_j2765958938745_1_alg».proof.Proof.LibBroadcastRead
import Idealize.ShloMosaic.Lib.ValueIdx
import Idealize.ShloMosaic.Lib.Pipeline.Value

noncomputable section

namespace Cert.Sage

open Idealize.ShloMosaic Idealize.ShloMosaic.ValueIdx

/-- Multiplying by the column of reciprocals is dividing by the column, entry by entry. -/
theorem mean_two_ways {n w : ℕ} (A : FVec Ideal ⟨2, ![n, w]⟩ .f32) (d : FVec Ideal ⟨1, ![n]⟩ .f32)
    (hs : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, w]⟩ ![0, 1]) :
    mulf A (broadcastInDim ⟨2, ![n, w]⟩ ![0, 1] h2 (broadcastInDim ⟨2, ![n, 1]⟩ ![0] h1
        (Host.divf (broadcastInDim ⟨1, ![n]⟩ ![] hs (constant (F := Ideal) ⟨0, ![]⟩ .f32 0x3F800000#32))
          (maximumf d (broadcastInDim ⟨1, ![n]⟩ ![] hs (constant (F := Ideal) ⟨0, ![]⟩ .f32 0x3F800000#32))))))
      = Host.divf A (broadcastInDim ⟨2, ![n, w]⟩ ![0, 1] h2 (broadcastInDim ⟨2, ![n, 1]⟩ ![0] h1
          (maximumf d (broadcastInDim ⟨1, ![n]⟩ ![] hs (constant (F := Ideal) ⟨0, ![]⟩ .f32 0x3F800000#32))))) := by
  funext i
  obtain ⟨p, q, rfl⟩ : ∃ (p : Fin n) (q : Fin w), i = ix2 p q := ⟨i 0, i 1, eq_ix2 i⟩
  have hone : ∀ k : (⟨1, ![n]⟩ : Shape).Idx,
      broadcastInDim ⟨1, ![n]⟩ ![] hs (constant (F := Ideal) ⟨0, ![]⟩ .f32 0x3F800000#32) k
        = Ideal.ofBits .f32 0x3F800000#32 := fun k =>
    broadcastInDim_apply _ hs _ k ix0 (fun a => a.elim0)
  show (A (ix2 p q) * _ : EReal) = Ideal.div (A (ix2 p q)) _
  rw [Cert.LibBroadcastRead.col_along_apply h2 _ p q, Cert.LibBroadcastRead.vec_as_col_apply h1 _ p 0,
    Cert.LibBroadcastRead.col_along_apply h2 _ p q, Cert.LibBroadcastRead.vec_as_col_apply h1 _ p 0]
  show A (ix2 p q) * Ideal.div (broadcastInDim ⟨1, ![n]⟩ ![] hs (constant (F := Ideal) ⟨0, ![]⟩ .f32 0x3F800000#32) (ix1 p))
      (max (d (ix1 p)) (broadcastInDim ⟨1, ![n]⟩ ![] hs (constant (F := Ideal) ⟨0, ![]⟩ .f32 0x3F800000#32) (ix1 p)))
    = Ideal.div (A (ix2 p q))
      (max (d (ix1 p)) (broadcastInDim ⟨1, ![n]⟩ ![] hs (constant (F := Ideal) ⟨0, ![]⟩ .f32 0x3F800000#32) (ix1 p)))
  rw [hone]
  exact mul_recip_eq_div_word _ _

end Cert.Sage

end
-- ==== Proof.KernelHost0.lean ====
/-
  What the first launch finds in its operand arrays, as the reference's own stages of the launch memory's arguments.

  Before the first launch the host runs thirty-four operations on the launch memory and the callee one more, a
  reshape. Read at the five buffers the launch takes, they leave the following.
    • The neighbour mean. Both programs gather the node features along the edges (a negative source index wrapped
      round by the number of nodes), sum them per target node, and count each node's incoming edges. The kernel's host
      then multiplies the sums by the column of reciprocals `1 / max deg 1`, where the reference divides them by the
      column `max deg 1`. As `max deg 1` is never zero the two agree entry by entry (the mean law); every other
      operation of the chain is the reference's own, applied to the same edge list and node features.
    • The node features themselves, which no operation writes.
    • The two weight matrices `[64, 32]` transposed to `[32, 64]`, exactly as the reference transposes them.
    • The bias `[64]` recast as the single row `[1, 64]`, whose entry `(0, j)` is the bias at `j`.
-/
import proofs.«111169_j2765958938745_1_alg».proof.Proof.KernelArgs
import proofs.«111169_j2765958938745_1_alg».proof.Proof.Gen.ReferenceIdeal.Read
import proofs.«111169_j2765958938745_1_alg».proof.Proof.MeanLaw
import proofs.«111169_j2765958938745_1_alg».proof.Proof.LibBroadcastRead
import Idealize.ShloMosaic.Lib.StableHlo.Run
import Idealize.ShloMosaic.Lib.ValueLayout

set_option maxRecDepth 16384

noncomputable section

namespace Cert.KernelIdeal.Sage

open Idealize.ShloMosaic Idealize.ShloMosaic.TcCoe Idealize.SL.Sem Idealize.ShloMosaic.ValueIdx
open Cert.KernelIdeal Cert.KernelIdeal.Gen
open Idealize.ShloMosaic.StableHlo

variable (m : (ℓ : Loc nD τ sig) → Buf (Elt Ideal) ℓ) (ρ : Dev nD → PrngReg) (c : Dev nD)

/-! ## What the first launch finds -/

/-- The mean operand is the reference's neighbour mean of the node features over the edge list: the host's chain read
    back to the two arguments is the summed messages times the column `1 / max deg 1`; by the mean law that is the
    summed messages divided by the column `max deg 1`, which is the reference's chain operation for operation. -/
theorem entry0_mean : V2 m ρ c main_v24 = Cert.ReferenceIdeal.Read.val_main_v22 (F := Ideal) (a0 m c) (a1 m c) := by
  show StableHlo.after hostOps0_1 (StableHlo.after hostOps0 (W0 m ρ c)) (Proc.devRef .tc main_v24) = _
  after_results_simp
  refine (Cert.Sage.mean_two_ways (n := 200000) (w := 32) _ _ bcast_S_S200000 bcast_S200000_S200000x1_0
    bcast_S200000x1_S200000x32_0_1).trans ?_
  unfold Cert.ReferenceIdeal.Read.val_main_v22 Cert.ReferenceIdeal.Read.val_main_v21
    Cert.ReferenceIdeal.Read.val_main_v20 Cert.ReferenceIdeal.Read.val_main_v19 Cert.ReferenceIdeal.Read.val_main_v18
    Cert.ReferenceIdeal.Read.val_main_v17 Cert.ReferenceIdeal.Read.val_main_v16 Cert.ReferenceIdeal.Read.val_main_v15
    Cert.ReferenceIdeal.Read.val_main_v14 Cert.ReferenceIdeal.Read.val_main_v13 Cert.ReferenceIdeal.Read.val_main_v12
    Cert.ReferenceIdeal.Read.val_main_v11 Cert.ReferenceIdeal.Read.val_main_v10 Cert.ReferenceIdeal.Read.val_main_v9
    Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_cst Cert.ReferenceIdeal.Read.val_main_cst_1 Cert.ReferenceIdeal.Read.val_main_cst_2
    Cert.ReferenceIdeal.Read.val_main_cst_3 Cert.ReferenceIdeal.Read.val_main_c Cert.ReferenceIdeal.Read.val_main_c_0
  rfl
/-- No host operation writes the node features: the launch finds them as the launch memory holds them. -/
theorem entry0_x : V2 m ρ c main_arg0 = a0 m c := by
  show StableHlo.after hostOps0_1 (StableHlo.after hostOps0 (W0 m ρ c)) (Proc.devRef .tc main_arg0) = _
  after_results_simp
/-- The neighbour weight `[64, 32]`, transposed to `[32, 64]` as the reference transposes it. -/
theorem entry0_wl : V2 m ρ c main_v25 = Cert.ReferenceIdeal.Read.val_main_v23 (F := Ideal) (a3 m c) := by
  show StableHlo.after hostOps0_1 (StableHlo.after hostOps0 (W0 m ρ c)) (Proc.devRef .tc main_v25) = _
  after_results_simp
  rfl
/-- The self weight `[64, 32]`, transposed to `[32, 64]` as the reference transposes it. -/
theorem entry0_wr : V2 m ρ c main_v26 = Cert.ReferenceIdeal.Read.val_main_v28 (F := Ideal) (a5 m c) := by
  show StableHlo.after hostOps0_1 (StableHlo.after hostOps0 (W0 m ρ c)) (Proc.devRef .tc main_v26) = _
  after_results_simp
  rfl
/-- The bias operand is the bias `[64]` recast as one row: a `[64] → [1, 64]` recast keeps the row-major order, so
    its entry `(0, j)` is the bias at `j`. -/
theorem entry0_b (j : Fin 64) : V2 m ρ c main_call0_v0 (ix2 0 j) = a4 m c (ix1 j) := by
  have h : V2 m ρ c main_call0_v0 = shapeCast S1x64 (a4 m c) shapeCasts_S64_S1x64 := by
    show StableHlo.after hostOps0_1 (StableHlo.after hostOps0 (W0 m ρ c)) (Proc.devRef .tc main_call0_v0) = _
    after_results_simp
    rfl
  rw [h]
  exact shapeCast_a_1a_apply (a4 m c) shapeCasts_S64_S1x64 0 j

end Cert.KernelIdeal.Sage

end
-- ==== Proof.KernelHost1.lean ====
/-
  What the second launch finds in its operand arrays, given what the first launch left in its result array.

  Between the two launches the host gathers the first layer's output along the edges, sums the messages at each target
  node, scales each row by the reciprocal of the node's in-degree (the degree taken at least one), and transposes the
  second layer's two weight matrices; the callee then lays the bias out as a row. Proved here, one theorem for each
  operand array of the second launch: the neighbour mean is the reference's quotient of the summed messages by the
  in-degree (multiplying by the column of reciprocals is dividing by the column), the node features are the first
  launch's result, the two weights are the reference's transposes, and the bias row reads the bias vector entry by entry.
-/
import proofs.«111169_j2765958938745_1_alg».proof.Proof.KernelArgs
import proofs.«111169_j2765958938745_1_alg».proof.Proof.Gen.ReferenceIdeal.Read
import proofs.«111169_j2765958938745_1_alg».proof.Proof.MeanLaw
import proofs.«111169_j2765958938745_1_alg».proof.Proof.LibBroadcastRead
import Idealize.ShloMosaic.Lib.StableHlo.Run
import Idealize.ShloMosaic.Lib.ValueLayout

set_option maxRecDepth 16384

noncomputable section

namespace Cert.KernelIdeal.Sage

open Idealize.ShloMosaic Idealize.ShloMosaic.TcCoe Idealize.SL.Sem Idealize.ShloMosaic.ValueIdx
open Cert.KernelIdeal Cert.KernelIdeal.Gen
open Idealize.ShloMosaic.StableHlo

variable (m : (ℓ : Loc nD τ sig) → Buf (Elt Ideal) ℓ) (ρ : Dev nD → PrngReg) (c : Dev nD)

/-! ## What the first stretch of host operations leaves, read at the first launch's entry

The second layer's weights and bias are written by nothing before the first launch, so they are as launched; the two
rows of the edge list and the reciprocal in-degree are the same terms the reference forms. -/

/-- The second layer's neighbour weight is as launched. -/
private theorem W2_arg6 : W2 m ρ c (Proc.devRef .tc main_arg6) = a6 m c := by
  show StableHlo.after hostOps0_1 (StableHlo.after hostOps0 (W0 m ρ c)) (Proc.devRef .tc main_arg6) = _
  after_results_simp

/-- The second layer's bias is as launched. -/
private theorem W2_arg7 : W2 m ρ c (Proc.devRef .tc main_arg7) = a7 m c := by
  show StableHlo.after hostOps0_1 (StableHlo.after hostOps0 (W0 m ρ c)) (Proc.devRef .tc main_arg7) = _
  after_results_simp

/-- The second layer's self weight is as launched. -/
private theorem W2_arg8 : W2 m ρ c (Proc.devRef .tc main_arg8) = a8 m c := by
  show StableHlo.after hostOps0_1 (StableHlo.after hostOps0 (W0 m ρ c)) (Proc.devRef .tc main_arg8) = _
  after_results_simp

/-- The edge sources, as a vector. -/
private theorem W2_v1 : W2 m ρ c (Proc.devRef .tc main_v1) = Cert.ReferenceIdeal.Read.val_main_v1 (F := Ideal) (a1 m c) := by
  show StableHlo.after hostOps0_1 (StableHlo.after hostOps0 (W0 m ρ c)) (Proc.devRef .tc main_v1) = _
  after_results_simp
  unfold Cert.ReferenceIdeal.Read.val_main_v1 Cert.ReferenceIdeal.Read.val_main_v0
  rfl

/-- The edge targets, as a vector. -/
private theorem W2_v3 : W2 m ρ c (Proc.devRef .tc main_v3) = Cert.ReferenceIdeal.Read.val_main_v3 (F := Ideal) (a1 m c) := by
  show StableHlo.after hostOps0_1 (StableHlo.after hostOps0 (W0 m ρ c)) (Proc.devRef .tc main_v3) = _
  after_results_simp
  unfold Cert.ReferenceIdeal.Read.val_main_v3 Cert.ReferenceIdeal.Read.val_main_v2
  rfl

/-- The reciprocal of each node's in-degree, the degree taken at least one: one over the larger of one and the number
    of edges that end at the node. -/
private theorem W2_v11 : W2 m ρ c (Proc.devRef .tc main_v11)
    = Host.divf (broadcastInDim S200000 ![] bcast_S_S200000 (constant (F := Ideal) S_ .f32 0x3F800000#32))
        (maximumf (Cert.ReferenceIdeal.Read.val_main_v45 (F := Ideal) (a1 m c))
          (broadcastInDim S200000 ![] bcast_S_S200000 (constant (F := Ideal) S_ .f32 0x3F800000#32))) := by
  show StableHlo.after hostOps0_1 (StableHlo.after hostOps0 (W0 m ρ c)) (Proc.devRef .tc main_v11) = _
  after_results_simp
  unfold Cert.ReferenceIdeal.Read.val_main_v45 Cert.ReferenceIdeal.Read.val_main_v44 Cert.ReferenceIdeal.Read.val_main_v43
    Cert.ReferenceIdeal.Read.val_main_v42 Cert.ReferenceIdeal.Read.val_main_cst_8 Cert.ReferenceIdeal.Read.val_main_cst_7
    Cert.ReferenceIdeal.Read.val_main_v3 Cert.ReferenceIdeal.Read.val_main_v2
  rfl

/-- The second layer's bias is still as launched after the second stretch of host operations: the first launch's
    arrays do not include it and the stretch does not write it. -/
private theorem W4_arg7 : W4 m ρ c (Proc.devRef .tc main_arg7) = a7 m c := by
  have h : W4 m ρ c (Proc.devRef .tc main_arg7) = W3 m ρ c (Proc.devRef .tc main_arg7) := by
    show StableHlo.after hostOps1 (W3 m ρ c) (Proc.devRef .tc main_arg7) = _
    after_results_simp
  rw [h, W3_of_ne m ρ c main_arg7 (by decide), W2_arg7]

/-! ## What the second launch finds, given what the first left -/

/-- The neighbour mean of the first layer's output. The host sums the gathered rows at each target node and multiplies
    row `p` by `1 / max (deg p) 1`; the reference divides row `p` by `max (deg p) 1`. The gathered array is the first
    launch's result, the edge rows and the degree are the reference's own terms, and the two ways of taking the mean
    agree entry by entry. -/
theorem entry1_mean
    (h1 : (dat0 (V2 m ρ) c).arrAt 5 cfg0.N
      = Cert.ReferenceIdeal.Read.val_main_v31 (F := Ideal) (a0 m c) (a1 m c) (a3 m c) (a4 m c) (a5 m c)) :
    V5 m ρ c main_v40
      = Cert.ReferenceIdeal.Read.val_main_v50 (F := Ideal) (a0 m c) (a1 m c) (a3 m c) (a4 m c) (a5 m c) := by
  show StableHlo.after hostOps1_1 (StableHlo.after hostOps1 (W3 m ρ c)) (Proc.devRef .tc main_v40) = _
  after_results_simp
  rw [W3_of_ne m ρ c main_v1 (by decide), W3_of_ne m ρ c main_v3 (by decide), W3_of_ne m ρ c main_v11 (by decide),
    show W3 m ρ c (Proc.devRef .tc main_v27) = _ from (W3_arr m ρ c 5).trans h1,
    W2_v1, W2_v3, W2_v11]
  refine (Cert.Sage.mean_two_ways (n := 200000) (w := 64) _ (Cert.ReferenceIdeal.Read.val_main_v45 (F := Ideal) (a1 m c))
    bcast_S_S200000 bcast_S200000_S200000x1_0 bcast_S200000x1_S200000x64_0_1).trans ?_
  unfold Cert.ReferenceIdeal.Read.val_main_v50 Cert.ReferenceIdeal.Read.val_main_v49 Cert.ReferenceIdeal.Read.val_main_v48
    Cert.ReferenceIdeal.Read.val_main_v47 Cert.ReferenceIdeal.Read.val_main_v46 Cert.ReferenceIdeal.Read.val_main_cst_9
    Cert.ReferenceIdeal.Read.val_main_v41 Cert.ReferenceIdeal.Read.val_main_v40 Cert.ReferenceIdeal.Read.val_main_v39
    Cert.ReferenceIdeal.Read.val_main_cst_6 Cert.ReferenceIdeal.Read.val_main_v38 Cert.ReferenceIdeal.Read.val_main_v37
    Cert.ReferenceIdeal.Read.val_main_v36 Cert.ReferenceIdeal.Read.val_main_v35 Cert.ReferenceIdeal.Read.val_main_v34
    Cert.ReferenceIdeal.Read.val_main_c_5 Cert.ReferenceIdeal.Read.val_main_v33 Cert.ReferenceIdeal.Read.val_main_v32
    Cert.ReferenceIdeal.Read.val_main_c_4
  rfl
/-- The node features of the second layer are the first launch's result array: no host operation between the launches
    writes it. -/
theorem entry1_x
    (h1 : (dat0 (V2 m ρ) c).arrAt 5 cfg0.N
      = Cert.ReferenceIdeal.Read.val_main_v31 (F := Ideal) (a0 m c) (a1 m c) (a3 m c) (a4 m c) (a5 m c)) :
    V5 m ρ c main_v27
      = Cert.ReferenceIdeal.Read.val_main_v31 (F := Ideal) (a0 m c) (a1 m c) (a3 m c) (a4 m c) (a5 m c) := by
  have h : V5 m ρ c main_v27 = W3 m ρ c (Proc.devRef .tc main_v27) := by
    show StableHlo.after hostOps1_1 (StableHlo.after hostOps1 (W3 m ρ c)) (Proc.devRef .tc main_v27) = _
    after_results_simp
  rw [h]
  exact (W3_arr m ρ c 5).trans h1
/-- The neighbour weight of the second layer, transposed. -/
theorem entry1_wl : V5 m ρ c main_v41 = Cert.ReferenceIdeal.Read.val_main_v51 (F := Ideal) (a6 m c) := by
  have h : V5 m ρ c main_v41
      = transpose S64x64 [1, 0] (W3 m ρ c (Proc.devRef .tc main_arg6)) transposes_S64x64_S64x64_1_0 := by
    show StableHlo.after hostOps1_1 (StableHlo.after hostOps1 (W3 m ρ c)) (Proc.devRef .tc main_v41) = _
    after_results_simp
  rw [h, W3_of_ne m ρ c main_arg6 (by decide), W2_arg6]
  rfl
/-- The self weight of the second layer, transposed. -/
theorem entry1_wr : V5 m ρ c main_v42 = Cert.ReferenceIdeal.Read.val_main_v56 (F := Ideal) (a8 m c) := by
  have h : V5 m ρ c main_v42
      = transpose S64x64 [1, 0] (W3 m ρ c (Proc.devRef .tc main_arg8)) transposes_S64x64_S64x64_1_0 := by
    show StableHlo.after hostOps1_1 (StableHlo.after hostOps1 (W3 m ρ c)) (Proc.devRef .tc main_v42) = _
    after_results_simp
  rw [h, W3_of_ne m ρ c main_arg8 (by decide), W2_arg8]
  rfl
/-- The bias of the second layer laid out as one row: entry `(0, j)` of the row is entry `j` of the vector. -/
theorem entry1_b (j : Fin 64) : V5 m ρ c main_call1_v0 (ix2 0 j) = a7 m c (ix1 j) := by
  have h : V5 m ρ c main_call1_v0
      = shapeCast S1x64 (W4 m ρ c (Proc.devRef .tc main_arg7)) shapeCasts_S64_S1x64 := by
    show StableHlo.after hostOps1_1 (W4 m ρ c) (Proc.devRef .tc main_call1_v0) = _
    after_results_simp
    rfl
  rw [h, W4_arg7]
  exact shapeCast_a_1a_apply (a := 64) (a7 m c) shapeCasts_S64_S1x64 0 j

end Cert.KernelIdeal.Sage

end
-- ==== Proof.KernelOut.lean ====
/-
  The result buffer at the end of the kernel program.

  After the second launch the program sums the node rows of each graph, divides by the larger of the graph's size and
  one, multiplies by the final weight and adds the final bias: the same host operations, on the same graph ids, weight
  and bias, that the reference applies to its own second layer. So once the second launch's result array is known to
  be the reference's second layer, the result buffer is the reference's last stage.
-/
import proofs.«111169_j2765958938745_1_alg».proof.Proof.KernelArgs
import proofs.«111169_j2765958938745_1_alg».proof.Proof.Gen.ReferenceIdeal.Read
import Idealize.ShloMosaic.Lib.StableHlo.Run
import Idealize.ShloMosaic.Lib.ValueLayout

set_option maxRecDepth 16384

noncomputable section

namespace Cert.KernelIdeal.Sage

open Idealize.ShloMosaic Idealize.ShloMosaic.TcCoe Idealize.SL.Sem Idealize.ShloMosaic.ValueIdx
open Cert.KernelIdeal Cert.KernelIdeal.Gen
open Idealize.ShloMosaic.StableHlo

variable (m : (ℓ : Loc nD τ sig) → Buf (Elt Ideal) ℓ) (ρ : Dev nD → PrngReg) (c : Dev nD)

/-- An argument buffer that the last host stretch does not write holds after it what it held after the second
    launch. -/
theorem tail_keeps_arg2 : W6 m ρ c (Proc.devRef .tc main_arg2) = a2 m c := by
  refine Eq.trans (Eq.symm ?_) (W7_main_arg2 m ρ c)
  show StableHlo.after hostOps2 (W6 m ρ c) (Proc.devRef .tc main_arg2) = _
  after_results_simp
theorem tail_keeps_arg9 : W6 m ρ c (Proc.devRef .tc main_arg9) = a9 m c := by
  refine Eq.trans (Eq.symm ?_) (W7_main_arg9 m ρ c)
  show StableHlo.after hostOps2 (W6 m ρ c) (Proc.devRef .tc main_arg9) = _
  after_results_simp
theorem tail_keeps_arg10 : W6 m ρ c (Proc.devRef .tc main_arg10) = a10 m c := by
  refine Eq.trans (Eq.symm ?_) (W7_main_arg10 m ρ c)
  show StableHlo.after hostOps2 (W6 m ρ c) (Proc.devRef .tc main_arg10) = _
  after_results_simp

set_option maxHeartbeats 4000000 in
theorem result_eq
    (h2 : (dat1 (V5 m ρ) c).arrAt 5 cfg1.N
      = Cert.ReferenceIdeal.Read.val_main_v59 (F := Ideal) (a0 m c) (a1 m c) (a3 m c) (a4 m c) (a5 m c) (a6 m c) (a7 m c) (a8 m c)) :
    W7 m ρ c (Proc.devRef .tc main_v60)
      = Cert.ReferenceIdeal.Read.val_main_v76 (F := Ideal) (a0 m c) (a1 m c) (a2 m c) (a3 m c) (a4 m c) (a5 m c) (a6 m c)
          (a7 m c) (a8 m c) (a9 m c) (a10 m c) := by
  have hlayer : W6 m ρ c (Proc.devRef .tc main_v43)
      = Cert.ReferenceIdeal.Read.val_main_v59 (F := Ideal) (a0 m c) (a1 m c) (a3 m c) (a4 m c) (a5 m c) (a6 m c) (a7 m c) (a8 m c) :=
    (W6_arr m ρ c 5).trans h2
  show StableHlo.after hostOps2 (W6 m ρ c) (Proc.devRef .tc main_v60) = _
  after_results_simp
  rw [hlayer, tail_keeps_arg2 m ρ c, tail_keeps_arg9 m ρ c, tail_keeps_arg10 m ρ c]
  rfl

end Cert.KernelIdeal.Sage

end
-- ==== Proof.lean ====
/-
  Two SAGE layers, a mean pool and a linear map: the kernel program and the reference compute the same function.

  Both programs gather each edge's source row, sum the rows into the edge's target node, and divide by the larger of
  the node's in-degree and one; the kernel program multiplies by the reciprocal instead, which is the same extended
  real because that divisor is never zero. Each layer is then  max ((mean · Wl + x · Wr) + b, 0): the kernel program
  computes it in a launch over fifty blocks of 4000 rows, each block the two matrix products of its rows, and the
  blocks tile the result array, so the array holds the layer's formula at every entry; the reference adds the bias
  between the two products, which is the same sum since addition of extended reals is commutative and associative.
  From the second layer's result on, both programs apply the same host operations (sum per graph, divide by the
  larger of the graph's size and one, the final product and bias), so equal layer results give equal outputs.

  The pieces: what each launch leaves in its result array as the layer formula of what it finds (Region0Value,
  Region1Value); the reference's layers as the same formula of its own stages (RefLayer); what the launches find and
  what the result buffer ends holding, as the reference's stages of the arguments (KernelHost0, KernelHost1,
  KernelOut); the run of the kernel program with its result buffer named (KernelLaunch).
-/
import proofs.«111169_j2765958938745_1_alg».proof.Defs
import proofs.«111169_j2765958938745_1_alg».proof.Proof.Gen.Kernel
import proofs.«111169_j2765958938745_1_alg».proof.Proof.Gen.Kernel.Skeleton
import proofs.«111169_j2765958938745_1_alg».proof.Proof.Gen.Kernel.Launch
import proofs.«111169_j2765958938745_1_alg».proof.Proof.Gen.Kernel.Points
import proofs.«111169_j2765958938745_1_alg».proof.Proof.Gen.Kernel.Frame
import proofs.«111169_j2765958938745_1_alg».proof.Proof.Gen.KernelIdeal
import proofs.«111169_j2765958938745_1_alg».proof.Proof.Gen.KernelIdeal.Skeleton
import proofs.«111169_j2765958938745_1_alg».proof.Proof.Gen.KernelIdeal.Launch
import proofs.«111169_j2765958938745_1_alg».proof.Proof.Gen.KernelIdeal.Points
import proofs.«111169_j2765958938745_1_alg».proof.Proof.Gen.KernelIdeal.Frame
import proofs.«111169_j2765958938745_1_alg».proof.Proof.Gen.ReferenceIdeal
import proofs.«111169_j2765958938745_1_alg».proof.Proof.Gen.Pre_finite_inputs
import proofs.«111169_j2765958938745_1_alg».proof.Proof.Gen.ReferenceIdeal.Run
import proofs.«111169_j2765958938745_1_alg».proof.Proof.Gen.ReferenceIdeal.Read
import proofs.«111169_j2765958938745_1_alg».proof.Proof.KernelLaunch
import proofs.«111169_j2765958938745_1_alg».proof.Proof.Region0Value
import proofs.«111169_j2765958938745_1_alg».proof.Proof.Region1Value
import proofs.«111169_j2765958938745_1_alg».proof.Proof.RefLayer
import proofs.«111169_j2765958938745_1_alg».proof.Proof.KernelHost0
import proofs.«111169_j2765958938745_1_alg».proof.Proof.KernelHost1
import proofs.«111169_j2765958938745_1_alg».proof.Proof.KernelOut
import Idealize.ShloMosaic.Adequacy
import Idealize.ShloMosaic.Init

noncomputable section

namespace Cert.Proof

open Idealize.ShloMosaic Idealize.ShloMosaic.TcCoe Idealize.SL.Sem Idealize.ShloMosaic.ValueIdx
open Cert.KernelIdeal Cert.KernelIdeal.Gen Cert.KernelIdeal.Sage

section Layers

variable (m : (ℓ : Loc nD τ sig) → Buf (Elt Ideal) ℓ) (ρ : Dev nD → PrngReg) (c : Dev nD)

/-- The first launch leaves the reference's first layer in its result array. -/
theorem layer1_eq : (dat0 (V2 m ρ) c).arrAt 5 cfg0.N
    = Cert.ReferenceIdeal.Read.val_main_v31 (F := Ideal) (a0 m c) (a1 m c) (a3 m c) (a4 m c) (a5 m c) := by
  rw [region0_value (V2 m ρ) c, Cert.ReferenceIdeal.Sage.ref_layer1, entry0_mean m ρ c, entry0_x m ρ c,
    entry0_wl m ρ c, entry0_wr m ρ c,
    show (fun j => V2 m ρ c main_call0_v0 (ix2 0 j)) = (fun j => a4 m c (ix1 j)) from funext (entry0_b m ρ c)]

/-- The second launch leaves the reference's second layer in its result array. -/
theorem layer2_eq : (dat1 (V5 m ρ) c).arrAt 5 cfg1.N
    = Cert.ReferenceIdeal.Read.val_main_v59 (F := Ideal) (a0 m c) (a1 m c) (a3 m c) (a4 m c) (a5 m c) (a6 m c) (a7 m c)
        (a8 m c) := by
  rw [region1_value (V5 m ρ) c, Cert.ReferenceIdeal.Sage.ref_layer2, entry1_mean m ρ c (layer1_eq m ρ c),
    entry1_x m ρ c (layer1_eq m ρ c), entry1_wl m ρ c, entry1_wr m ρ c,
    show (fun j => V5 m ρ c main_call1_v0 (ix2 0 j)) = (fun j => a7 m c (ix1 j)) from funext (entry1_b m ρ c)]

end Layers

theorem frame_k : Cert.frame_Kernel := fun m ρ _ => Cert.Kernel.Gen.frame m ρ

theorem frame_ki : Cert.frame_KernelIdeal := fun m ρ _ => Cert.KernelIdeal.Gen.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's last stage of the (agreeing) arguments in their result buffers. -/
theorem algebraic : Cert.algebraic_KernelIdeal_ReferenceIdeal := by
  intro m ρ m' ρ' _ hagree
  refine ⟨fun c => Cert.ReferenceIdeal.Read.val_main_v76 (F := Ideal) (a0 m c) (a1 m c) (a2 m c) (a3 m c) (a4 m c) (a5 m c)
    (a6 m c) (a7 m c) (a8 m c) (a9 m c) (a10 m c), ?_, ?_⟩
  · exact (θ_run Cert.KernelIdeal.defs _ _).mono
      (fun r h c => ⟨(h c).1.trans (result_eq m ρ c (layer2_eq m ρ c)), (h c).2⟩)
      (Cert.KernelIdeal.Sage.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v76_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
